-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x768 : Shape := ⟨3, ![4, 8192, 768]⟩
abbrev S8192x768 : Shape := ⟨2, ![8192, 768]⟩
abbrev S768 : Shape := ⟨1, ![768]⟩
abbrev S_ : Shape := ⟨0, ![]⟩

class Facts : Prop where
  bcast_S_S4x8192x768 : S_.BroadcastsInDim S4x8192x768 (![] : Fin 0 → Fin S4x8192x768.rank)
  reducesTo_S4x8192x768_S_d0_1_2 : S4x8192x768.ReducesTo [0, 1, 2] S_
  h_S_ : 0 < S_.numel
  bcast_S_S8192x768 : S_.BroadcastsInDim S8192x768 (![] : Fin 0 → Fin S8192x768.rank)
  reducesTo_S8192x768_S_d0_1 : S8192x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  main_v18

def fn {F : FTy → Type} [FloatOps F] (main_arg0 : FVec F S4x8192x768 .f32) (main_arg1 : FVec F S8192x768 .f32) (main_arg2 : FVec F S768 .f32) (main_arg3 : FVec F S768 .f32) : IVec S_ 1 :=
  let main_v0 : FVec F S4x8192x768 .f32 := Host.absf main_arg0
  let main_cst : FVec F S_ .f32 := constant S_ .f32 0x7F800000#32
  let main_v1 : FVec F S4x8192x768 .f32 := broadcastInDim S4x8192x768 ![] bcast_S_S4x8192x768 main_cst
  let main_v2 : IVec S4x8192x768 1 := cmpf .olt main_v0 main_v1
  let main_c : IVec S_ 1 := constantI S_ 1 1#1
  let main_v3 : IVec S_ 1 := (fun x v => Host.reduce IntOp.andi x v reducesTo_S4x8192x768_S_d0_1_2 h_S_) main_v2 main_c
  let main_v4 : FVec F S8192x768 .f32 := Host.absf main_arg1
  let main_cst_0 : FVec F S_ .f32 := constant S_ .f32 0x7F800000#32
  let main_v5 : FVec F S8192x768 .f32 := broadcastInDim S8192x768 ![] bcast_S_S8192x768 main_cst_0
  let main_v6 : IVec S8192x768 1 := cmpf .olt main_v4 main_v5
  let main_c_1 : IVec S_ 1 := constantI S_ 1 1#1
  let main_v7 : IVec S_ 1 := (fun x v => Host.reduce IntOp.andi x v reducesTo_S8192x768_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_v13 main_v16
-- ==== Kernel.lean ====
abbrev S4x8192x768 : Shape := ⟨3, ![4, 8192, 768]⟩
abbrev S8192x768 : Shape := ⟨2, ![8192, 768]⟩
abbrev S768 : Shape := ⟨1, ![768]⟩
abbrev S4x896x768 : Shape := ⟨3, ![4, 896, 768]⟩
abbrev S896x768 : Shape := ⟨2, ![896, 768]⟩
abbrev S1x896x768 : Shape := ⟨3, ![1, 896, 768]⟩
abbrev S4x896 : Shape := ⟨2, ![4, 896]⟩
abbrev S4x896x1 : Shape := ⟨3, ![4, 896, 1]⟩
abbrev S1x1x768 : Shape := ⟨3, ![1, 1, 768]⟩

abbrev nBuf : Space → Nat
  | .hbm => 5
  | .vmem => 8
  | .smem => 0
  | _ => 0

abbrev bufTy : (tb : Table) → Fin (tcTables nBuf tb) → BufTy
  | .hbm, ⟨0, _⟩ => ⟨S4x8192x768, .f32⟩
  | .hbm, ⟨1, _⟩ => ⟨S8192x768, .f32⟩
  | .hbm, ⟨2, _⟩ => ⟨S768, .f32⟩
  | .hbm, ⟨3, _⟩ => ⟨S768, .f32⟩
  | .hbm, ⟨4, _⟩ => ⟨S4x8192x768, .f32⟩
  | .local _ .vmem, ⟨0, _⟩ => ⟨S4x896x768, .f32⟩
  | .local _ .vmem, ⟨1, _⟩ => ⟨S4x896x768, .f32⟩
  | .local _ .vmem, ⟨2, _⟩ => ⟨S896x768, .f32⟩
  | .local _ .vmem, ⟨3, _⟩ => ⟨S896x768, .f32⟩
  | .local _ .vmem, ⟨4, _⟩ => ⟨S768, .f32⟩
  | .local _ .vmem, ⟨5, _⟩ => ⟨S768, .f32⟩
  | .local _ .vmem, ⟨6, _⟩ => ⟨S4x896x768, .f32⟩
  | .local _ .vmem, ⟨7, _⟩ => ⟨S4x896x768, .f32⟩
  | _, _ => ⟨S4x8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![10], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x896x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S896x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x896x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S4x896x768_S4x896x768_0_0_0 : ∀ a, (![0, 0, 0] : Fin 3 → Nat) a + S4x896x768.size a ≤ S4x896x768.size a
  h_S4x896x768 : 0 < S4x896x768.numel
  inb_S896x768_S896x768_0_0 : ∀ a, (![0, 0] : Fin 2 → Nat) a + S896x768.size a ≤ S896x768.size a
  h_S896x768 : 0 < S896x768.numel
  shapeCasts_S896x768_S1x896x768 : S896x768.ShapeCasts S1x896x768
  broadcasts_S1x896x768_S4x896x768 : S1x896x768.Broadcasts S4x896x768
  reduces_S4x896x768_S4x896 : S4x896x768.Reduces [2] S4x896
  shapeCasts_S4x896_S4x896x1 : S4x896.ShapeCasts S4x896x1
  broadcasts_S4x896x1_S4x896x768 : S4x896x1.Broadcasts S4x896x768
  inb_S768_S768_0 : ∀ a, (![0] : Fin 1 → Nat) a + S768.size a ≤ S768.size a
  h_S768 : 0 < S768.numel
  shapeCasts_S768_S1x1x768 : S768.ShapeCasts S1x1x768
  broadcasts_S1x1x768_S4x896x768 : S1x1x768.Broadcasts S4x896x768
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S4x896x768.size a < S4x8192x768.size a
  hwx0_0 : ∀ i : grid0.Coords, EltTy.bits .f32 = 32 ∨ (Rect.unit (s := S4x8192x768) (fun a => cc0_transform_0 i a * S4x896x768.size a) (fun a => (Pipeline.Clip.of (cc0_transform_0 i a) (S4x896x768.size a) (S4x8192x768.size a)).extent (S4x896x768.size a)) fun a => Pipeline.Clip.inb (Pipeline.Clip.ok_of (hstart0_0 i a))).WholeWords (EltTy.packing .f32)
  hwxs0_0 : ∀ i : grid0.Coords, EltTy.bits .f32 = 32 ∨ (Rect.unit (s := S4x896x768) (fun _ => 0) (fun a => (Pipeline.Clip.of (cc0_transform_0 i a) (S4x896x768.size a) (S4x8192x768.size a)).extent (S4x896x768.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S896x768.size a < S8192x768.size a
  hwx0_1 : ∀ i : grid0.Coords, EltTy.bits .f32 = 32 ∨ (Rect.unit (s := S8192x768) (fun a => cc0_transform_1 i a * S896x768.size a) (fun a => (Pipeline.Clip.of (cc0_transform_1 i a) (S896x768.size a) (S8192x768.size a)).extent (S896x768.size a)) fun a => Pipeline.Clip.inb (Pipeline.Clip.ok_of (hstart0_1 i a))).WholeWords (EltTy.packing .f32)
  hwxs0_1 : ∀ i : grid0.Coords, EltTy.bits .f32 = 32 ∨ (Rect.unit (s := S896x768) (fun _ => 0) (fun a => (Pipeline.Clip.of (cc0_transform_1 i a) (S896x768.size a) (S8192x768.size a)).extent (S896x768.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768.size a ≤ S768.size a
  hwx0_2 : ∀ i : grid0.Coords, EltTy.bits .f32 = 32 ∨ (Rect.block (s := S768) S768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768.size a ≤ S768.size a
  hwx0_3 : ∀ i : grid0.Coords, EltTy.bits .f32 = 32 ∨ (Rect.block (s := S768) S768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S4x896x768.size a < S4x8192x768.size a
  hwx0_4 : ∀ i : grid0.Coords, EltTy.bits .f32 = 32 ∨ (Rect.unit (s := S4x8192x768) (fun a => cc0_transform_4 i a * S4x896x768.size a) (fun a => (Pipeline.Clip.of (cc0_transform_4 i a) (S4x896x768.size a) (S4x8192x768.size a)).extent (S4x896x768.size a)) fun a => Pipeline.Clip.inb (Pipeline.Clip.ok_of (hstart0_4 i a))).WholeWords (EltTy.packing .f32)
  hwxs0_4 : ∀ i : grid0.Coords, EltTy.bits .f32 = 32 ∨ (Rect.unit (s := S4x896x768) (fun _ => 0) (fun a => (Pipeline.Clip.of (cc0_transform_4 i a) (S4x896x768.size a) (S4x8192x768.size a)).extent (S4x896x768.size a)) fun a => (Nat.zero_add _).trans_le (Pipeline.Clip.extent_le (Pipeline.Clip.ok_of (hstart0_4 i a)))).WholeWords (EltTy.packing .f32)

variable [Facts₀]

abbrev win0_0 : Pipeline.Window sig grid0 :=
  Pipeline.Window.ofSpecClip (Memref.whole main_arg0) S4x896x768.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg1) S896x768.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_arg2) S768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpecClip (Memref.whole main_v0) S4x896x768.size cc0_transform_4 reads0_4 true false 2 stage0_4 sem0_4
    hrank0 hreads0_4 hstart0_4 nbuf0_4 (Memref.isWhole_whole _) hwx0_4 hwxs0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x8192x768 : Shape := ⟨3, ![4, 8192, 768]⟩
abbrev S8192x768 : Shape := ⟨2, ![8192, 768]⟩
abbrev S768 : Shape := ⟨1, ![768]⟩
abbrev S8192 : Shape := ⟨1, ![8192]⟩
abbrev S1x8192 : Shape := ⟨2, ![1, 8192]⟩
abbrev S4x8192 : Shape := ⟨2, ![4, 8192]⟩
abbrev S_ : Shape := ⟨0, ![]⟩
abbrev S4x8192x1 : Shape := ⟨3, ![4, 8192, 1]⟩
abbrev S1 : Shape := ⟨1, ![1]⟩
abbrev S1x1x1 : Shape := ⟨3, ![1, 1, 1]⟩
abbrev S1x1x768 : Shape := ⟨3, ![1, 1, 768]⟩

abbrev nBuf : Space → Nat
  | .hbm => 60
  | .vmem => 0
  | .smem => 0
  | _ => 0

abbrev bufTy : (tb : Table) → Fin (tcTables nBuf tb) → BufTy
  | .hbm, ⟨0, _⟩ => ⟨S4x8192x768, .f32⟩
  | .hbm, ⟨1, _⟩ => ⟨S8192x768, .f32⟩
  | .hbm, ⟨2, _⟩ => ⟨S768, .f32⟩
  | .hbm, ⟨3, _⟩ => ⟨S768, .f32⟩
  | .hbm, ⟨4, _⟩ => ⟨S8192, .i32⟩
  | .hbm, ⟨5, _⟩ => ⟨S1x8192, .i32⟩
  | .hbm, ⟨6, _⟩ => ⟨S4x8192, .i32⟩
  | .hbm, ⟨7, _⟩ => ⟨S_, .i32⟩
  | .hbm, ⟨8, _⟩ => ⟨S4x8192, .i32⟩
  | .hbm, ⟨9, _⟩ => ⟨S4x8192, .i1⟩
  | .hbm, ⟨10, _⟩ => ⟨S_, .i32⟩
  | .hbm, ⟨11, _⟩ => ⟨S4x8192, .i32⟩
  | .hbm, ⟨12, _⟩ => ⟨S4x8192, .i32⟩
  | .hbm, ⟨13, _⟩ => ⟨S4x8192, .i32⟩
  | .hbm, ⟨14, _⟩ => ⟨S4x8192x1, .i32⟩
  | .hbm, ⟨15, _⟩ => ⟨S1, .i32⟩
  | .hbm, ⟨16, _⟩ => ⟨S_, .i32⟩
  | .hbm, ⟨17, _⟩ => ⟨S4x8192x1, .i32⟩
  | .hbm, ⟨18, _⟩ => ⟨S4x8192x1, .i1⟩
  | .hbm, ⟨19, _⟩ => ⟨S1x1x1, .i32⟩
  | .hbm, ⟨20, _⟩ => ⟨S4x8192x1, .i32⟩
  | .hbm, ⟨21, _⟩ => ⟨S4x8192x1, .i1⟩
  | .hbm, ⟨22, _⟩ => ⟨S4x8192x1, .i1⟩
  | .hbm, ⟨23, _⟩ => ⟨S_, .i1⟩
  | .hbm, ⟨24, _⟩ => ⟨S4x8192, .i1⟩
  | .hbm, ⟨25, _⟩ => ⟨S4x8192x768, .f32⟩
  | .hbm, ⟨26, _⟩ => ⟨S4x8192x768, .i1⟩
  | .hbm, ⟨27, _⟩ => ⟨S_, .f32⟩
  | .hbm, ⟨28, _⟩ => ⟨S4x8192x768, .f32⟩
  | .hbm, ⟨29, _⟩ => ⟨S4x8192x768, .f32⟩
  | .hbm, ⟨30, _⟩ => ⟨S4x8192x768, .f32⟩
  | .hbm, ⟨31, _⟩ => ⟨S_, .f32⟩
  | .hbm, ⟨32, _⟩ => ⟨S4x8192, .f32⟩
  | .hbm, ⟨33, _⟩ => ⟨S4x8192x1, .f32⟩
  | .hbm, ⟨34, _⟩ => ⟨S_, .f32⟩
  | .hbm, ⟨35, _⟩ => ⟨S4x8192x1, .f32⟩
  | .hbm, ⟨36, _⟩ => ⟨S4x8192x1, .f32⟩
  | .hbm, ⟨37, _⟩ => ⟨S4x8192x768, .f32⟩
  | .hbm, ⟨38, _⟩ => ⟨S4x8192x768, .f32⟩
  | .hbm, ⟨39, _⟩ => ⟨S4x8192x768, .f32⟩
  | .hbm, ⟨40, _⟩ => ⟨S_, .f32⟩
  | .hbm, ⟨41, _⟩ => ⟨S4x8192, .f32⟩
  | .hbm, ⟨42, _⟩ => ⟨S4x8192x1, .f32⟩
  | .hbm, ⟨43, _⟩ => ⟨S_, .f32⟩
  | .hbm, ⟨44, _⟩ => ⟨S4x8192x1, .f32⟩
  | .hbm, ⟨45, _⟩ => ⟨S4x8192x1, .f32⟩
  | .hbm, ⟨46, _⟩ => ⟨S4x8192x768, .f32⟩
  | .hbm, ⟨47, _⟩ => ⟨S4x8192x768, .f32⟩
  | .hbm, ⟨48, _⟩ => ⟨S_, .f32⟩
  | .hbm, ⟨49, _⟩ => ⟨S4x8192x1, .f32⟩
  | .hbm, ⟨50, _⟩ => ⟨S4x8192x1, .f32⟩
  | .hbm, ⟨51, _⟩ => ⟨S4x8192x1, .f32⟩
  | .hbm, ⟨52, _⟩ => ⟨S4x8192x768, .f32⟩
  | .hbm, ⟨53, _⟩ => ⟨S4x8192x768, .f32⟩
  | .hbm, ⟨54, _⟩ => ⟨S1x1x768, .f32⟩
  | .hbm, ⟨55, _⟩ => ⟨S4x8192x768, .f32⟩
  | .hbm, ⟨56, _⟩ => ⟨S4x8192x768, .f32⟩
  | .hbm, ⟨57, _⟩ => ⟨S1x1x768, .f32⟩
  | .hbm, ⟨58, _⟩ => ⟨S4x8192x768, .f32⟩
  | .hbm, ⟨59, _⟩ => ⟨S4x8192x768, .f32⟩
  | _, _ => ⟨S4x8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v3 : Ref sig .tc := ⟨.hbm, 29, rfl⟩
abbrev main_v4 : Ref sig .tc := ⟨.hbm, 30, rfl⟩
abbrev main_cst : Ref sig .tc := ⟨.hbm, 31, rfl⟩
abbrev main_v5 : Ref sig .tc := ⟨.hbm, 32, rfl⟩
abbrev main_v6 : Ref sig .tc := ⟨.hbm, 33, rfl⟩
abbrev main_cst_0 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_cst_1 : Ref sig .tc := ⟨.hbm, 40, rfl⟩
abbrev main_v12 : Ref sig .tc := ⟨.hbm, 41, rfl⟩
abbrev main_v13 : Ref sig .tc := ⟨.hbm, 42, rfl⟩
abbrev main_cst_2 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_cst_3 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩

abbrev nD : Nat := 1
abbrev τ : Topo := Topo.v7x

variable {F : FTy → Type} [FloatOps F]

class Facts₀ : Prop where
  bcast_S8192_S1x8192_1 : S8192.BroadcastsInDim S1x8192 (![1] : Fin 1 → Fin S1x8192.rank)
  bcast_S1x8192_S4x8192_0_1 : S1x8192.BroadcastsInDim S4x8192 (![0, 1] : Fin 2 → Fin S4x8192.rank)
  bcast_S_S4x8192 : S_.BroadcastsInDim S4x8192 (![] : Fin 0 → Fin S4x8192.rank)
  bcast_S4x8192_S4x8192x1_0_1 : S4x8192.BroadcastsInDim S4x8192x1 (![0, 1] : Fin 2 → Fin S4x8192x1.rank)
  bcast_S_S4x8192x1 : S_.BroadcastsInDim S4x8192x1 (![] : Fin 0 → Fin S4x8192x1.rank)
  bcast_S1_S1x1x1_2 : S1.BroadcastsInDim S1x1x1 (![2] : Fin 1 → Fin S1x1x1.rank)
  bcast_S1x1x1_S4x8192x1_0_1_2 : S1x1x1.BroadcastsInDim S4x8192x1 (![0, 1, 2] : Fin 3 → Fin S4x8192x1.rank)
  reducesTo_S4x8192x1_S4x8192_d2 : S4x8192x1.ReducesTo [2] S4x8192
  h_S_ : 0 < S_.numel
  bcast_S4x8192_S4x8192x768_0_1 : S4x8192.BroadcastsInDim S4x8192x768 (![0, 1] : Fin 2 → Fin S4x8192x768.rank)
  bcast_S_S4x8192x768 : S_.BroadcastsInDim S4x8192x768 (![] : Fin 0 → Fin S4x8192x768.rank)
  reducesTo_S4x8192x768_S4x8192_d2 : S4x8192x768.ReducesTo [2] S4x8192
  bcast_S4x8192x1_S4x8192x768_0_1_2 : S4x8192x1.BroadcastsInDim S4x8192x768 (![0, 1, 2] : Fin 3 → Fin S4x8192x768.rank)
  bcast_S768_S1x1x768_2 : S768.BroadcastsInDim S1x1x768 (![2] : Fin 1 → Fin S1x1x768.rank)
  bcast_S1x1x768_S4x8192x768_0_1_2 : S1x1x768.BroadcastsInDim S4x8192x768 (![0, 1, 2] : Fin 3 → Fin S4x8192x768.rank)
  gather_S8192x768_S4x8192x1_S4x8192x768_2_0_n_n_0_2_1768_wf : GatherDims.WF S8192x768 S4x8192x1 S4x8192x768 [2] [0] [] [0] [] 2 ![1, 768]

variable [Facts₀]

def gather_S8192x768_S4x8192x1_S4x8192x768_2_0_n_n_0_2_1768 : GatherDims S8192x768 S4x8192x1 S4x8192x768 where
  offsetDims := [2]
  collapsedSliceDims := [0]
  operandBatchingDims := []
  startIndicesBatchingDims := []
  startIndexMap := [0]
  indexVectorDim := 2
  sliceSizes := ![1, 768]
  wf := gather_S8192x768_S4x8192x1_S4x8192x768_2_0_n_n_0_2_1768_wf

class Facts : Prop extends Facts₀ where

variable [Facts]
-- ==== Proof.KBodyBits.lean ====
/-
  The kernel body's triple: on whole staging memrefs that read `x0` (the data block), `x1` (the table block), `x2`
  (the scale) and `x3` (the shift), and an output memref holding anything, the body loads the four inputs, makes one
  dead load of the output buffer, and stores the one payload over the whole output buffer; the inputs are left as found.
-/
import proofs.«124209_g83047487635803_cont_sun_m_1218_11_alg».proof.Proof.Gen.Kernel.Launch
import proofs.«124209_g83047487635803_cont_sun_m_1218_11_alg».proof.Proof.Gen.Kernel.Skeleton
import proofs.«124209_g83047487635803_cont_sun_m_1218_11_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem sound_kernel (c : Dev nD) (E : Set ℕ) (i : grid0.Coords)
    (arg1 : Memref sig .tc .vmem S4x896x768 .f32) (harg1 : arg1.IsWhole) (arg2 : Memref sig .tc .vmem S896x768 .f32) (harg2 : arg2.IsWhole)
    (arg3 : Memref sig .tc .vmem S768 .f32) (harg3 : arg3.IsWhole) (arg4 : Memref sig .tc .vmem S768 .f32) (harg4 : arg4.IsWhole)
    (arg5 : Memref sig .tc .vmem S4x896x768 .f32) (harg5 : arg5.IsWhole)
    (x0 : Vec F S4x896x768 .f32) (x1 : Vec F S896x768 .f32) (x2 x3 : Vec F S768 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (k0_pay1 x0 x1 x2 x3)) -∗ K ⟨⟩))
      ⊢ wp frame (wpE (defs₀ (F := F)) Variants.none c none) E
          (cc0__embed_ln_kernel i arg1 harg1 arg2 harg2 arg3 harg3 arg4 harg4 arg5 harg5) K := by
  -- the zero offsets, however spelt, are the constant zero map
  have hz3 : (![0, 0, 0] : Fin 3 → Nat) = fun _ => 0 := funext fun a => by fin_cases a <;> rfl
  have hz2 : (![0, 0] : Fin 2 → Nat) = fun _ => 0 := funext fun a => by fin_cases a <;> rfl
  have hz1 : (![0] : Fin 1 → Nat) = fun _ => 0 := funext fun a => by fin_cases a; rfl
  simp only [cc0__embed_ln_kernel_eq_skeleton]; unfold cc0__embed_ln_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  -- the one store covers the whole output buffer, so the buffer reads the store's payload; each load went through
  -- the whole rectangle at offset zero, so it read the contents
  rw [View.read_writes_eq_canon _ _ _ (fun y => ⟨_, List.mem_singleton_self _, View.mem_set_unit_zero hz3 inb_S4x896x768_S4x896x768_0_0_0 y⟩)]
  rw [View.canon_unit_zero hz3]
  simp only [View.readAt_eq_ld, View.ld_unit_zero (S := S4x896x768) hz3, View.ld_unit_zero (S := S896x768) hz2,
    View.ld_unit_zero (S := S768) hz1]

end Cert.Kernel.Hand

end
-- ==== Proof.KFrameBits.lean ====
/-
  The frame of the word-level kernel: it runs to the end, faults nowhere, and leaves its four argument arrays as they
  were. Nothing is said of what the body computes: the result window's staging buffer is handed to the body at any
  contents and taken back at any contents, so the result array ends at its entry contents overwritten block by block
  by words nothing constrains. The data and table windows' last blocks overhang their arrays; their staging buffers hold
  the block on the rows inside the array and anything past them, and the body, which only reads them, hands them back so.
-/
import proofs.«124209_g83047487635803_cont_sun_m_1218_11_alg».proof.Proof.Gen.Kernel.Frame
import proofs.«124209_g83047487635803_cont_sun_m_1218_11_alg».proof.Proof.KBodyBits
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The one window whose contents the frame does not follow: the result's. -/
def fgt : Fin cfg0.W → Bool := fun w => w.val == 4

/-- The proof data: the input buffers as in the value run; the result buffer's contents are not named. -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => Scalar.ofBits .f32 0#32) (iblk m c 0 t)
    | ⟨1, _⟩ => win0_1.fill (grid0.coords t) (fun _ => Scalar.ofBits .f32 0#32) (iblk m c 1 t)
    | ⟨2, _⟩ => iblk m c 2 t
    | ⟨3, _⟩ => iblk m c 3 t
    | ⟨4, _⟩ => fun _ => Scalar.ofBits .f32 0#32
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) :
    (dats m 0 c).after 0 t = win0_0.fill (grid0.coords t) (fun _ => Scalar.ofBits .f32 0#32) (iblk m c 0 t) := by dsimp only [dats]
theorem after0_1 (c : Dev nD) (t : Fin cfg0.N) :
    (dats m 0 c).after 1 t = win0_1.fill (grid0.coords t) (fun _ => Scalar.ofBits .f32 0#32) (iblk m c 1 t) := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

theorem before0_0 (c : Dev nD) (t : Fin cfg0.N) (d) :
    (dats m 0 c).before 0 t d = win0_0.fill (grid0.coords t) d (iblk m c 0 t) := by
  rw [(dats m 0 c).before_fetched 0 t (fetch0_0 t)]; rfl
theorem before0_1 (c : Dev nD) (t : Fin cfg0.N) (d) :
    (dats m 0 c).before 1 t d = win0_1.fill (grid0.coords t) d (iblk m c 1 t) := by
  rw [(dats m 0 c).before_fetched 1 t (fetch0_1 t)]; rfl
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body is called with at point `t`, the windows one by one; -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ X, owns (c : Thread nD τ) (st0_4 t) fullShare X))

/-- and what it returns: the two cut windows stated on the rows inside the array, the result's not at all. -/
def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ (∃ d, owns (c : Thread nD τ) (st0_1 t) fullShare (win0_1.fill (grid0.coords t) d (win0_1.cut (grid0.coords t) ((dats m 0 c).after 1 t))))
    ∗ owns (c : Thread nD τ) (st0_2 t) fullShare ((dats m 0 c).after 2 t)
    ∗ owns (c : Thread nD τ) (st0_3 t) fullShare ((dats m 0 c).after 3 t)
    ∗ (∃ X, owns (c : Thread nD τ) (st0_4 t) fullShare X))

/-- The body at any point: the inputs are found as `before0_W` says, the body's triple applies, and each cut input,
    unchanged, is its block on the rows inside the array filled out with what the fetch left past them. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl]
  have hx0 : win0_0.cut (grid0.coords t) ((dats m 0 c).after 0 t) = iblk m c 0 t := by
    rw [after0_0]; exact win0_0.cut_fill _ _ _
  have hx1 : win0_1.cut (grid0.coords t) ((dats m 0 c).after 1 t) = iblk m c 1 t := by
    rw [after0_1]; exact win0_1.cut_fill _ _ _
  rw [hx0, hx1, after0_2, after0_3]
  iintro ⟨HΦ, Ho, ⟨%d0, H0⟩, ⟨%d1, H1⟩, ⟨%d2, H2⟩, ⟨%d3, H3⟩, ⟨%X4, H4⟩⟩
  rw [before0_0 m c t d0, before0_1 m c t d1, before0_2 m c t d2, before0_3 m c t d3]
  iapply (sound_kernel (F := F) c Set.univ (grid0.coords t) _ _ _ _ _ _ _ _ _ _
    (win0_0.fill (grid0.coords t) d0 (iblk m c 0 t)) (win0_1.fill (grid0.coords t) d1 (iblk m c 1 t)) (iblk m c 2 t) (iblk m c 3 t) _)
  isplitl [H0]; · iexact H0
  isplitl [H1]; · iexact H1
  isplitl [H2]; · iexact H2
  isplitl [H3]; · iexact H3
  isplitl [H4]; · iexists X4; iexact H4
  iintro ⟨H0, H1, H2, H3, H4⟩
  isplitl [HΦ]; · iexact HΦ
  isplitl [Ho]; · iexact Ho
  isplitl [H0]; · iexists d0; iexact H0
  isplitl [H1]; · iexists d1; iexact H1
  isplitl [H2]; · iexact H2
  isplitl [H3]; · iexact H3
  iexists _; iexact H4

/-- The library's body obligation, the result window forgotten. -/
theorem body_obligation (c : Dev nD) :
    BodyObligationLoose (dats (F := F) m 0 c) (defs₀ (F := F)) Variants.none () Set.univ fgt := fun t => by
  rw [bigSep_W0, bigSep_W0]
  exact sound_body m c t

/-! ## The run and the frame -/

set_option backward.isDefEq.respectTransparency.types false in
/-- Every weakly fair execution of @main terminates, and every final state has each input array at its entry
    contents and every other unscoped buffer as the region found it. -/
theorem run_main : θ_run defs (onTc (τ := τ) (main (F := F))) (s₀ m ρ)
    (Pipeline.RDat.FramePost cfg0 (fun c => (dats m 0 c).toRForget fgt) (V m)) :=
  Pipeline.RDat.θ_run_frame cfgs (0 : Fin 1) launch0 defs₀ Variants.none (fun c => (dats m 0 c).toRForget fgt) m ρ main
    (hbody := fun c => (body_obligation m c).toRForget) (hshare := fun c => (dats m 0 c).share_full fun _ => rfl)
    (howed := fun _ _ => rfl) (V := V m) (hmain := hmain m Variants.none) (hA := fun _ _ => rfl) (hΦ := fun _ _ => rfl)

/-- The frame: the four argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨Pipeline.RDat.FramePost.arr_in h c 0 rfl, Pipeline.RDat.FramePost.arr_in h c 1 rfl,
      Pipeline.RDat.FramePost.arr_in h c 2 rfl, Pipeline.RDat.FramePost.arr_in h c 3 rfl⟩) (run_main m ρ)

end Cert.Kernel.Hand

end
-- ==== Proof.KBody.lean ====
/-
  The kernel body's triple: on whole staging memrefs that read `x0` (the data block), `x1` (the table block), `x2`
  (the scale) and `x3` (the shift), and an output memref holding anything, the body loads the four inputs, makes one
  dead load of the output buffer, and stores the one payload over the whole output buffer; the inputs are left as found.
-/
import proofs.«124209_g83047487635803_cont_sun_m_1218_11_alg».proof.Proof.Gen.KernelIdeal.Launch
import proofs.«124209_g83047487635803_cont_sun_m_1218_11_alg».proof.Proof.Gen.KernelIdeal.Skeleton
import proofs.«124209_g83047487635803_cont_sun_m_1218_11_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem sound_kernel (c : Dev nD) (E : Set ℕ) (i : grid0.Coords)
    (arg1 : Memref sig .tc .vmem S4x896x768 .f32) (harg1 : arg1.IsWhole) (arg2 : Memref sig .tc .vmem S896x768 .f32) (harg2 : arg2.IsWhole)
    (arg3 : Memref sig .tc .vmem S768 .f32) (harg3 : arg3.IsWhole) (arg4 : Memref sig .tc .vmem S768 .f32) (harg4 : arg4.IsWhole)
    (arg5 : Memref sig .tc .vmem S4x896x768 .f32) (harg5 : arg5.IsWhole)
    (x0 : Vec F S4x896x768 .f32) (x1 : Vec F S896x768 .f32) (x2 x3 : Vec F S768 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (k0_pay1 x0 x1 x2 x3)) -∗ K ⟨⟩))
      ⊢ wp frame (wpE (defs₀ (F := F)) Variants.none c none) E
          (cc0__embed_ln_kernel i arg1 harg1 arg2 harg2 arg3 harg3 arg4 harg4 arg5 harg5) K := by
  -- the zero offsets, however spelt, are the constant zero map
  have hz3 : (![0, 0, 0] : Fin 3 → Nat) = fun _ => 0 := funext fun a => by fin_cases a <;> rfl
  have hz2 : (![0, 0] : Fin 2 → Nat) = fun _ => 0 := funext fun a => by fin_cases a <;> rfl
  have hz1 : (![0] : Fin 1 → Nat) = fun _ => 0 := funext fun a => by fin_cases a; rfl
  simp only [cc0__embed_ln_kernel_eq_skeleton]; unfold cc0__embed_ln_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  -- the one store covers the whole output buffer, so the buffer reads the store's payload; each load went through
  -- the whole rectangle at offset zero, so it read the contents
  rw [View.read_writes_eq_canon _ _ _ (fun y => ⟨_, List.mem_singleton_self _, View.mem_set_unit_zero hz3 inb_S4x896x768_S4x896x768_0_0_0 y⟩)]
  rw [View.canon_unit_zero hz3]
  simp only [View.readAt_eq_ld, View.ld_unit_zero (S := S4x896x768) hz3, View.ld_unit_zero (S := S896x768) hz2,
    View.ld_unit_zero (S := S768) hz1]

end Cert.KernelIdeal.Hand

end
-- ==== Proof.LNSpec.lean ====
/-
  Layer normalisation of one row, as a function on the extended reals, in the two spellings the two programs use,
  and the whole result array built from it.

  A row is a function `e : Fin 768 → EReal`. Its mean is the sum of its entries divided by 768; its centred entries
  are `e h - mean`; its variance is the sum of the squared centred entries divided by 768. The kernel multiplies a
  centred entry by the reciprocal square root of `variance + ε`; the reference divides it by the square root of
  `variance + ε`. Both then scale by `γ h` and shift by `β h`. The constants are kept as the bit patterns both
  programs print (768.0 and ε ≈ 1e-12 at f32).

  The row that is normalised at batch entry `a` and position `r` is `x[a, r, ·] + pos[r, ·]`.
-/
import Idealize.ShloMosaic.PureOps.Ideal
import Idealize.ShloMosaic.Lib.ValueIdx

noncomputable section

namespace Cert.LN

open Idealize.ShloMosaic Idealize.ShloMosaic.ValueIdx

/-- The three array shapes: the data `[4, 8192, 768]`, the position table `[8192, 768]`, a scale or shift `[768]`. -/
abbrev SX : Shape := ⟨3, ![4, 8192, 768]⟩
abbrev SP : Shape := ⟨2, ![8192, 768]⟩
abbrev SG : Shape := ⟨1, ![768]⟩

/-- The divisor 768.0 and the ε both programs add to the variance, as the extended reals their patterns denote. -/
def c768 : EReal := Ideal.ofBits .f32 0x44400000#32
def ceps : EReal := Ideal.ofBits .f32 0x2B8CBCCC#32

/-- The mean of a row. -/
def mean (e : Fin 768 → EReal) : EReal := Ideal.div (∑ k : Fin 768, e k) c768

/-- A centred entry. -/
def cen (e : Fin 768 → EReal) (h : Fin 768) : EReal := e h - mean e

/-- The variance of a row: the mean of its squared centred entries. -/
def var (e : Fin 768 → EReal) : EReal := Ideal.div (∑ k : Fin 768, cen e k * cen e k) c768

/-- The kernel's spelling: the centred entry TIMES the reciprocal square root. -/
def lnK (e g b : Fin 768 → EReal) (h : Fin 768) : EReal :=
  cen e h * Ideal.rsqrt (var e + ceps) * g h + b h

/-- The reference's spelling: the centred entry DIVIDED BY the square root. -/
def lnR (e g b : Fin 768 → EReal) (h : Fin 768) : EReal :=
  Ideal.div (cen e h) (Ideal.sqrt (var e + ceps)) * g h + b h

/-- The row normalised at batch entry `a`, position `r`: the data's row plus the table's row. -/
def erow (x : SX.Idx → EReal) (p : SP.Idx → EReal) (a : Fin 4) (r : Fin 8192) (k : Fin 768) : EReal :=
  x (ix3 a r k) + p (ix2 r k)

/-- A scale or shift vector as a row. -/
def grow (g : SG.Idx → EReal) (k : Fin 768) : EReal := g (ix1 k)

/-- The result array in the kernel's spelling … -/
def GK (x : SX.Idx → EReal) (p : SP.Idx → EReal) (g b : SG.Idx → EReal) : SX.Idx → EReal :=
  fun i => lnK (erow x p (i 0) (i 1)) (grow g) (grow b) (i 2)

/-- … and in the reference's. -/
def G (x : SX.Idx → EReal) (p : SP.Idx → EReal) (g b : SG.Idx → EReal) : SX.Idx → EReal :=
  fun i => lnR (erow x p (i 0) (i 1)) (grow g) (grow b) (i 2)

theorem GK_apply (x : SX.Idx → EReal) (p : SP.Idx → EReal) (g b : SG.Idx → EReal) (a : Fin 4) (r : Fin 8192) (h : Fin 768) :
    GK x p g b (ix3 a r h) = lnK (erow x p a r) (grow g) (grow b) h := rfl

theorem G_apply (x : SX.Idx → EReal) (p : SP.Idx → EReal) (g b : SG.Idx → EReal) (a : Fin 4) (r : Fin 8192) (h : Fin 768) :
    G x p g b (ix3 a r h) = lnR (erow x p a r) (grow g) (grow b) h := rfl

end Cert.LN

end
-- ==== Proof.KPay.lean ====
/-
  The kernel's payload read at one index, at the extended reals: entry `(a, r, h)` of what the body stores is the layer
  normalisation (in the kernel's spelling) of the row `x0[a, r, ·] + x1[r, ·]`, scaled by `x2[h]` and shifted by `x3[h]`.
  Only row `(a, r)` of the data block and row `r` of the table block enter it.
-/
import proofs.«124209_g83047487635803_cont_sun_m_1218_11_alg».proof.Proof.Gen.KernelIdeal.Skeleton
import proofs.«124209_g83047487635803_cont_sun_m_1218_11_alg».proof.Proof.LNSpec
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.ValueIdx

/-! The layout steps first, each read at an index given by its coordinates: the table repeated along the batch axis, a
768-vector repeated along batch and row, a per-row column repeated along the lanes, the view of a `[4, 896]` array as a
column, and the sum over the lanes as a sum over `Fin 768`. Then the row quantities, each from the one before: the mean
column, the centred array, the variance column, and the last pointwise steps. The theorem chains them. -/

/-- The table block viewed as `[1, 896, 768]` and repeated along the batch axis reads, at `(a, r, k)`, entry `(r, k)` of the table. -/
theorem tab_apply (x1 : FVec Ideal S896x768 .f32) (a : Fin 4) (r : Fin 896) (k : Fin 768) :
    broadcastTo S4x896x768 (shapeCast S1x896x768 x1 shapeCasts_S896x768_S1x896x768) broadcasts_S1x896x768_S4x896x768 (ix3 a r k)
      = x1 (ix2 r k) := by
  refine (broadcastTo_apply _ _ (ix3 a r k) (ix3 (0 : Fin 1) r k) ?_).trans ?_
  · intro ax
    match ax with
    | ⟨0, _⟩ => rfl
    | ⟨1, _⟩ => rfl
    | ⟨2, _⟩ => rfl
  · refine shapeCast_apply x1 _ (ix3 (0 : Fin 1) r k) (ix2 r k) ?_
    rw [Shape.rowMajor_val_two, Shape.rowMajor_val_three]
    show r.val * 768 + k.val = ((0 : Fin 1).val * 896 + r.val) * 768 + k.val
    simp

/-- A scale or shift vector viewed as `[1, 1, 768]` and repeated along the batch and row axes reads, at `(a, r, k)`, its entry `k`. -/
theorem vec_apply (g : FVec Ideal S768 .f32) (a : Fin 4) (r : Fin 896) (k : Fin 768) :
    broadcastTo S4x896x768 (shapeCast S1x1x768 g shapeCasts_S768_S1x1x768) broadcasts_S1x1x768_S4x896x768 (ix3 a r k)
      = g (ix1 k) := by
  refine (broadcastTo_apply _ _ (ix3 a r k) (ix3 (0 : Fin 1) (0 : Fin 1) k) ?_).trans ?_
  · intro ax
    match ax with
    | ⟨0, _⟩ => rfl
    | ⟨1, _⟩ => rfl
    | ⟨2, _⟩ => rfl
  · refine shapeCast_apply g _ (ix3 (0 : Fin 1) (0 : Fin 1) k) (ix1 k) ?_
    rw [Shape.rowMajor_val_one, Shape.rowMajor_val_three]
    show k.val = ((0 : Fin 1).val * 1 + (0 : Fin 1).val) * 768 + k.val
    simp

/-- A per-row quantity `[4, 896]` viewed as a column `[4, 896, 1]` and repeated along the lane axis reads, at `(a, r, k)`, its entry `(a, r)`. -/
theorem col_apply (m : FVec Ideal S4x896x1 .f32) (a : Fin 4) (r : Fin 896) (k : Fin 768) :
    broadcastTo S4x896x768 m broadcasts_S4x896x1_S4x896x768 (ix3 a r k) = m (ix3 a r (0 : Fin 1)) := by
  refine broadcastTo_apply _ _ (ix3 a r k) (ix3 a r (0 : Fin 1)) ?_
  intro ax
  match ax with
  | ⟨0, _⟩ => rfl
  | ⟨1, _⟩ => rfl
  | ⟨2, _⟩ => rfl

/-- The view of a `[4, 896]` array as `[4, 896, 1]` reads, at `(a, r, 0)`, its entry `(a, r)`. -/
theorem keep_apply (m : FVec Ideal S4x896 .f32) (a : Fin 4) (r : Fin 896) :
    shapeCast S4x896x1 m shapeCasts_S4x896_S4x896x1 (ix3 a r (0 : Fin 1)) = m (ix2 a r) := by
  refine shapeCast_apply m _ (ix3 a r (0 : Fin 1)) (ix2 a r) ?_
  rw [Shape.rowMajor_val_two, Shape.rowMajor_val_three]
  show a.val * 896 + r.val = (a.val * 896 + r.val) * 1 + (0 : Fin 1).val
  simp

/-- The sum over the lane axis of a `[4, 896, 768]` array, at row `(a, r)`, is the sum of that row's 768 entries. -/
theorem lane_sum (src : FVec Ideal S4x896x768 .f32) (h : S4x896x768.Reduces [2] S4x896) (hφ : FKind.Formats .f32)
    (hacc : (0x00000000#32 : BitVec 32) = FKind.add.neutral .f32 hφ) (a : Fin 4) (r : Fin 896) :
    multiReduction (F := Ideal) .add [2] S4x896 src 0x00000000#32 h hφ hacc (ix2 a r) = ∑ k : Fin 768, src (ix3 a r k) := by
  refine (Ideal.multiReduction_add_single src _ h hφ hacc (ix2 a r)).trans ?_
  refine Finset.sum_congr rfl fun k _ => congrArg src ?_
  funext ax
  refine Fin.ext ?_
  match ax with
  | ⟨0, _⟩ => rfl
  | ⟨1, _⟩ => rfl
  | ⟨2, _⟩ => rfl

/-- The lane sum of an array, viewed as a column and divided by 768, is at `(a, r, 0)` the mean of row `(a, r)`. -/
theorem mean_apply (e : FVec Ideal S4x896x768 .f32) (h : S4x896x768.Reduces [2] S4x896) (hφ : FKind.Formats .f32)
    (hacc : (0x00000000#32 : BitVec 32) = FKind.add.neutral .f32 hφ) (a : Fin 4) (r : Fin 896) :
    divf (shapeCast S4x896x1 (multiReduction (F := Ideal) .add [2] S4x896 e 0x00000000#32 h hφ hacc) shapeCasts_S4x896_S4x896x1)
        (broadcast S4x896x1 (Scalar.ofBits .f32 0x44400000#32 : Ideal .f32)) (ix3 a r (0 : Fin 1))
      = Cert.LN.mean (fun k => e (ix3 a r k)) := by
  refine (divf_apply _ _ _).trans ?_
  show Ideal.div _ (Ideal.ofBits .f32 0x44400000#32) = Ideal.div (∑ k : Fin 768, e (ix3 a r k)) (Ideal.ofBits .f32 0x44400000#32)
  refine congrArg (fun z => Ideal.div z (Ideal.ofBits .f32 0x44400000#32)) ?_
  exact (keep_apply _ a r).trans (lane_sum e h hφ hacc a r)

/-- An array minus a column that holds each row's mean is, at `(a, r, k)`, the centred entry of row `(a, r)`. -/
theorem cen_apply (e : FVec Ideal S4x896x768 .f32) (m : FVec Ideal S4x896x1 .f32) (a : Fin 4) (r : Fin 896)
    (hm : m (ix3 a r (0 : Fin 1)) = Cert.LN.mean (fun k => e (ix3 a r k))) (k : Fin 768) :
    subf e (broadcastTo S4x896x768 m broadcasts_S4x896x1_S4x896x768) (ix3 a r k) = Cert.LN.cen (fun k => e (ix3 a r k)) k := by
  refine (subf_apply _ _ _).trans ?_
  show e (ix3 a r k) - _ = e (ix3 a r k) - Cert.LN.mean (fun k => e (ix3 a r k))
  refine congrArg (fun z => e (ix3 a r k) - z) ?_
  exact (col_apply m a r k).trans hm

/-- The lane sum of the squares of an array whose row `(a, r)` holds the centred entries, viewed as a column and divided by 768,
    is at `(a, r, 0)` the variance of row `(a, r)`. -/
theorem var_apply (e c : FVec Ideal S4x896x768 .f32) (h : S4x896x768.Reduces [2] S4x896) (hφ : FKind.Formats .f32)
    (hacc : (0x00000000#32 : BitVec 32) = FKind.add.neutral .f32 hφ) (a : Fin 4) (r : Fin 896)
    (hc : ∀ k : Fin 768, c (ix3 a r k) = Cert.LN.cen (fun k => e (ix3 a r k)) k) :
    divf (shapeCast S4x896x1 (multiReduction (F := Ideal) .add [2] S4x896 (mulf c c) 0x00000000#32 h hφ hacc) shapeCasts_S4x896_S4x896x1)
        (broadcast S4x896x1 (Scalar.ofBits .f32 0x44400000#32 : Ideal .f32)) (ix3 a r (0 : Fin 1))
      = Cert.LN.var (fun k => e (ix3 a r k)) := by
  refine (divf_apply _ _ _).trans ?_
  show Ideal.div _ (Ideal.ofBits .f32 0x44400000#32)
    = Ideal.div (∑ k : Fin 768, Cert.LN.cen (fun k => e (ix3 a r k)) k * Cert.LN.cen (fun k => e (ix3 a r k)) k) (Ideal.ofBits .f32 0x44400000#32)
  refine congrArg (fun z => Ideal.div z (Ideal.ofBits .f32 0x44400000#32)) ?_
  refine ((keep_apply _ a r).trans (lane_sum (mulf c c) h hφ hacc a r)).trans ?_
  refine Finset.sum_congr rfl fun k _ => ?_
  refine (mulf_apply c c (ix3 a r k)).trans ?_
  exact congrArg (fun z => z * z) (hc k)

/-- The last steps at `(a, r, h)`: the centred array times the repeated reciprocal square root of the variance column plus ε,
    times the repeated scale, plus the repeated shift. -/
theorem out_apply (c : FVec Ideal S4x896x768 .f32) (v : FVec Ideal S4x896x1 .f32) (x2 x3 : FVec Ideal S768 .f32)
    (a : Fin 4) (r : Fin 896) (h : Fin 768) :
    addf (mulf (mulf c (broadcastTo S4x896x768 (rsqrt (addf v (broadcast S4x896x1 (Scalar.ofBits .f32 0x2B8CBCCC#32 : Ideal .f32))))
              broadcasts_S4x896x1_S4x896x768))
            (broadcastTo S4x896x768 (shapeCast S1x1x768 x2 shapeCasts_S768_S1x1x768) broadcasts_S1x1x768_S4x896x768))
        (broadcastTo S4x896x768 (shapeCast S1x1x768 x3 shapeCasts_S768_S1x1x768) broadcasts_S1x1x768_S4x896x768) (ix3 a r h)
      = c (ix3 a r h) * Ideal.rsqrt (v (ix3 a r (0 : Fin 1)) + Cert.LN.ceps) * x2 (ix1 h) + x3 (ix1 h) := by
  refine (addf_apply _ _ _).trans ?_
  refine congrArg₂ (· + ·) ?_ (vec_apply x3 a r h)
  refine (mulf_apply _ _ _).trans ?_
  refine congrArg₂ (· * ·) ?_ (vec_apply x2 a r h)
  refine (mulf_apply _ _ _).trans ?_
  refine congrArg (fun z => c (ix3 a r h) * z) ?_
  refine (col_apply _ a r h).trans ?_
  rfl

theorem pay_apply (x0 : FVec Ideal S4x896x768 .f32) (x1 : FVec Ideal S896x768 .f32) (x2 x3 : FVec Ideal S768 .f32)
    (a : Fin 4) (r : Fin 896) (h : Fin 768) :
    k0_pay1 (F := Ideal) x0 x1 x2 x3 (ix3 a r h)
      = Cert.LN.lnK (fun k => x0 (ix3 a r k) + x1 (ix2 r k)) (fun k => x2 (ix1 k)) (fun k => x3 (ix1 k)) h := by
  -- row (a, r) of the summed array is the data's row plus the table's row
  have hrow : (fun k : Fin 768 => addf x0 (broadcastTo S4x896x768 (shapeCast S1x896x768 x1 shapeCasts_S896x768_S1x896x768)
        broadcasts_S1x896x768_S4x896x768) (ix3 a r k)) = fun k => x0 (ix3 a r k) + x1 (ix2 r k) :=
    funext fun k => (addf_apply _ _ _).trans (congrArg (fun z => x0 (ix3 a r k) + z) (tab_apply x1 a r k))
  refine Eq.trans ?_ (congrArg (fun ρ => Cert.LN.lnK ρ (fun k => x2 (ix1 k)) (fun k => x3 (ix1 k)) h) hrow)
  unfold k0_pay1
  -- the scale, the shift and the reciprocal square root read pointwise; what is left is the centred entry and the variance
  refine (out_apply _ _ x2 x3 a r h).trans ?_
  show _ = Cert.LN.cen _ h * Ideal.rsqrt (Cert.LN.var _ + Cert.LN.ceps) * x2 (ix1 h) + x3 (ix1 h)
  -- every entry of row (a, r) of the centred array is the row's centred entry
  have hc := fun k : Fin 768 => cen_apply
    (addf x0 (broadcastTo S4x896x768 (shapeCast S1x896x768 x1 shapeCasts_S896x768_S1x896x768) broadcasts_S1x896x768_S4x896x768))
    _ a r
    (mean_apply
      (addf x0 (broadcastTo S4x896x768 (shapeCast S1x896x768 x1 shapeCasts_S896x768_S1x896x768) broadcasts_S1x896x768_S4x896x768))
      reduces_S4x896x768_S4x896 (.inl rfl) rfl a r) k
  refine congrArg₂ (fun c v => c * Ideal.rsqrt (v + Cert.LN.ceps) * x2 (ix1 h) + x3 (ix1 h)) (hc h) ?_
  exact var_apply _ _ reduces_S4x896x768_S4x896 (.inl rfl) rfl a r hc

end Cert.KernelIdeal.Hand

end
-- ==== Proof.KCover.lean ====
/-
  The ten write-backs of the result window cover the result array: row `R` of the array (any batch entry, any column)
  lies in the block written back at point `R / 896`, whose rows inside the array are `896·t … min(896·t + 895, 8191)`.
-/
import proofs.«124209_g83047487635803_cont_sun_m_1218_11_alg».proof.Proof.Gen.KernelIdeal.Frame
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

/-- The result window: block index `(0, t, 0)`; its transfer moves all four batch entries, all 768 columns, and the rows
    of the block that lie inside the array (896 of them, 128 at the last point). -/
theorem geo4 : ∀ t : Fin cfg0.N,
    win0_4.index t 0 = 0 ∧ win0_4.index t 1 = t.val ∧ win0_4.index t 2 = 0
    ∧ win0_4.xsize (grid0.coords t) 0 = 4 ∧ win0_4.xsize (grid0.coords t) 1 = min 896 (8192 - 896 * t.val)
    ∧ win0_4.xsize (grid0.coords t) 2 = 768 :=
  (by decide +kernel : ∀ t : Fin grid0.N, _)

/-- The block's extents along the three axes, as numbers. -/
theorem size4 : win0_4.size 0 = 4 ∧ win0_4.size 1 = 896 ∧ win0_4.size 2 = 768 := ⟨rfl, rfl, rfl⟩

/-- An index of the result array is in point `t`'s write-back block iff its row is among the block's rows inside the array. -/
theorem mem_blk4 (t : Fin cfg0.N) (i : S4x8192x768.Idx) :
    i ∈ ((cfg0.win 4).blk t).view.set ↔ 896 * t.val ≤ (i 1).val ∧ (i 1).val < 896 * t.val + min 896 (8192 - 896 * t.val) := by
  show i ∈ ((View.whole main_v0).slice (win0_4.rect t)).set ↔ _
  rw [View.set_slice_whole, Rect.mem_set_unit]
  obtain ⟨g0, g1, g2, x0, x1, x2⟩ := geo4 t
  obtain ⟨s0, s1, s2⟩ := size4
  have h0 : (i 0).val < 4 := (i 0).isLt
  have h2 : (i 2).val < 768 := (i 2).isLt
  constructor
  · intro h
    have h1 := h 1
    change win0_4.index t 1 * win0_4.size 1 ≤ (i 1).val
      ∧ (i 1).val < win0_4.index t 1 * win0_4.size 1 + win0_4.xsize (grid0.coords t) 1 at h1
    rw [g1, s1, x1] at h1
    omega
  · intro h a
    match a with
    | ⟨0, _⟩ =>
      change win0_4.index t 0 * win0_4.size 0 ≤ (i 0).val
        ∧ (i 0).val < win0_4.index t 0 * win0_4.size 0 + win0_4.xsize (grid0.coords t) 0
      rw [g0, s0, x0]; omega
    | ⟨1, _⟩ =>
      change win0_4.index t 1 * win0_4.size 1 ≤ (i 1).val
        ∧ (i 1).val < win0_4.index t 1 * win0_4.size 1 + win0_4.xsize (grid0.coords t) 1
      rw [g1, s1, x1]; omega
    | ⟨2, _⟩ =>
      change win0_4.index t 2 * win0_4.size 2 ≤ (i 2).val
        ∧ (i 2).val < win0_4.index t 2 * win0_4.size 2 + win0_4.xsize (grid0.coords t) 2
      rw [g2, s2, x2]; omega

/-- Row `R` lies in the block of point `R / 896`: `896·(R/896) ≤ R < 896·(R/896) + 896`, and `R < 8192`. -/
theorem cover4_lit (i : S4x8192x768.Idx) :
    ∃ t : Fin cfg0.N, (cfg0.win 4).flush t = true ∧ i ∈ ((cfg0.win 4).blk t).view.set := by
  have hi : (i 1).val < 8192 := (i 1).isLt
  have hN : cfg0.N = 10 := N_0
  refine ⟨⟨(i 1).val / 896, by rw [hN]; omega⟩, flush0_4 _, (mem_blk4 _ i).2 ?_⟩
  show 896 * ((i 1).val / 896) ≤ (i 1).val
    ∧ (i 1).val < 896 * ((i 1).val / 896) + min 896 (8192 - 896 * ((i 1).val / 896))
  omega

/-- Every index of the result array is in some write-back's block. -/
theorem cover4 (c : Dev nD) (i : ((cfg0.win 4).arr.view.loc (c.tc : Thread nD τ)).2.ty.Idx) :
    ∃ t : Fin cfg0.N, (cfg0.win 4).flush t = true ∧ i ∈ ((cfg0.win 4).blk t).view.set := by
  exact cover4_lit i

end Cert.KernelIdeal.Hand

end
-- ==== Proof.KRun.lean ====
/-
  The idealized kernel's run with its result array NAMED. The grid has ten points; point `t` stages rows
  `896·t … 896·t + 895` of the data (all four batch entries) and of the position table, and the whole scale and shift
  vectors; the last point's block overhangs the arrays by 768 rows, so its fetches fill only the first 128 rows of the
  staging buffers and its write-back writes only those rows. The body normalises every row of its staging block, the
  rows past the arrays' end too, but a row of the result depends only on the same row of the data block and of the table
  block, so on the rows inside the array the stored block is the block of ONE whole-array function: layer normalisation
  (in the kernel's spelling) of `x[a, r, ·] + pos[r, ·]`. The ten write-backs cover the result array.
-/
import proofs.«124209_g83047487635803_cont_sun_m_1218_11_alg».proof.Proof.Gen.KernelIdeal.Frame
import proofs.«124209_g83047487635803_cont_sun_m_1218_11_alg».proof.Proof.KBody
import proofs.«124209_g83047487635803_cont_sun_m_1218_11_alg».proof.Proof.KPay
import proofs.«124209_g83047487635803_cont_sun_m_1218_11_alg».proof.Proof.KCover
import proofs.«124209_g83047487635803_cont_sun_m_1218_11_alg».proof.Proof.LNSpec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The arrays and the result function -/

/-- The four argument arrays as the region finds them, at their literal types. -/
abbrev xarr (c : Dev nD) : FVec Ideal S4x8192x768 .f32 := V m c main_arg0
abbrev parr (c : Dev nD) : FVec Ideal S8192x768 .f32 := V m c main_arg1
abbrev garr (c : Dev nD) : FVec Ideal S768 .f32 := V m c main_arg2
abbrev barr (c : Dev nD) : FVec Ideal S768 .f32 := V m c main_arg3

/-- The result array: every row of `x + pos` normalised, scaled and shifted (the kernel's spelling). -/
def Gout (c : Dev nD) : Buf (Elt Ideal) ((c : Thread nD τ).loc main_v0) :=
  Cert.LN.GK (xarr m c) (parr m c) (garr m c) (barr m c)

/-! ## The proof data -/

/-- After the body at point `t`: the data and table buffers hold their blocks on the rows inside the arrays (zero
    past them: nothing reads that choice), the scale and shift buffers the whole vectors, and the result buffer, on the
    rows inside the array, block `t` of the result function. -/
def dats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) (fun _ => Scalar.ofBits (F := Ideal) .f32 0#32) (iblk m c 0 t)
    | ⟨1, _⟩ => win0_1.fill (grid0.coords t) (fun _ => Scalar.ofBits (F := Ideal) .f32 0#32) (iblk m c 1 t)
    | ⟨2, _⟩ => iblk m c 2 t
    | ⟨3, _⟩ => iblk m c 3 t
    | ⟨4, _⟩ => win0_4.fill (grid0.coords t) (fun _ => Scalar.ofBits (F := Ideal) .f32 0#32) ((win0_4.blk t).view.read (Elt Ideal) (Gout m c))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) :
    (dats m 0 c).after 0 t = win0_0.fill (grid0.coords t) (fun _ => Scalar.ofBits (F := Ideal) .f32 0#32) (iblk m c 0 t) := by dsimp only [dats]
theorem after0_1 (c : Dev nD) (t : Fin cfg0.N) :
    (dats m 0 c).after 1 t = win0_1.fill (grid0.coords t) (fun _ => Scalar.ofBits (F := Ideal) .f32 0#32) (iblk m c 1 t) := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = win0_4.fill (grid0.coords t) (fun _ => Scalar.ofBits (F := Ideal) .f32 0#32) ((win0_4.blk t).view.read (Elt Ideal) (Gout m c)) := by
  dsimp only [dats]

/-- What the body finds: the data and table buffers just fetched (the block on the rows inside the array, anything
    past them), the scale and shift buffers at the whole vectors, the result buffer at anything. -/
theorem before0_0 (c : Dev nD) (t : Fin cfg0.N) (d) :
    (dats m 0 c).before 0 t d = win0_0.fill (grid0.coords t) d (iblk m c 0 t) := by
  rw [(dats m 0 c).before_fetched 0 t (fetch0_0 t)]; rfl
theorem before0_1 (c : Dev nD) (t : Fin cfg0.N) (d) :
    (dats m 0 c).before 1 t d = win0_1.fill (grid0.coords t) d (iblk m c 1 t) := by
  rw [(dats m 0 c).before_fetched 1 t (fetch0_1 t)]; rfl
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = d := by
  refine (dats m 0 c).before_out_reset 4 rfl t ?_ d
  by_cases h0 : t.val = 0
  · exact .inl h0
  · exact .inr ⟨h0, flush0_4 _⟩

/-! ## The windows' geometry, decided once over the ten points -/

/-- The data window: block index `(0, t, 0)`; its transfer moves all four batch entries, all 768 columns, and the rows
    of the block that lie inside the array (896 of them, 128 at the last point). -/
theorem geo0 : ∀ t : Fin cfg0.N,
    win0_0.index t 0 = 0 ∧ win0_0.index t 1 = t.val ∧ win0_0.index t 2 = 0
    ∧ win0_0.xsize (grid0.coords t) 0 = 4 ∧ win0_0.xsize (grid0.coords t) 1 = min 896 (8192 - 896 * t.val)
    ∧ win0_0.xsize (grid0.coords t) 2 = 768 :=
  (by decide +kernel : ∀ t : Fin grid0.N, _)

/-- The table window: block index `(t, 0)`, the same rows. -/
theorem geo1 : ∀ t : Fin cfg0.N,
    win0_1.index t 0 = t.val ∧ win0_1.index t 1 = 0
    ∧ win0_1.xsize (grid0.coords t) 0 = min 896 (8192 - 896 * t.val) ∧ win0_1.xsize (grid0.coords t) 1 = 768 :=
  (by decide +kernel : ∀ t : Fin grid0.N, _)

/-- The scale and shift windows: block index 0, the whole vector. -/
theorem geo2 : ∀ t : Fin cfg0.N, win0_2.index t 0 = 0 := (by decide +kernel : ∀ t : Fin grid0.N, _)
theorem geo3 : ∀ t : Fin cfg0.N, win0_3.index t 0 = 0 := (by decide +kernel : ∀ t : Fin grid0.N, _)

/-! ## The staged blocks read at an index -/

/-- The data buffer after its fetch at point `t`, at a row `r` whose array row `896·t + r` exists: the array's entry. -/
theorem fill0_apply (c : Dev nD) (t : Fin cfg0.N) (d : S4x896x768.Idx → Elt Ideal .f32) (a : Fin 4) (r : Fin 896) (k : Fin 768)
    (hr : 896 * t.val + r.val < 8192) :
    win0_0.fill (grid0.coords t) d (iblk m c 0 t) (ix3 a r k) = xarr m c (ix3 a ⟨896 * t.val + r.val, hr⟩ k) := by
  obtain ⟨i0, i1, i2, x0, x1, x2⟩ := geo0 t
  have hmv : win0_0.moved (grid0.coords t) (ix3 a r k) = true := (win0_0.moved_iff _ _).mpr fun ax => by
    match ax with
    | ⟨0, _⟩ => show a.val < win0_0.xsize (grid0.coords t) 0; rw [x0]; exact a.isLt
    | ⟨1, _⟩ => show r.val < win0_0.xsize (grid0.coords t) 1; rw [x1]; have := r.isLt; omega
    | ⟨2, _⟩ => show k.val < win0_0.xsize (grid0.coords t) 2; rw [x2]; exact k.isLt
  unfold Window.fill; rw [dif_pos hmv]
  unfold iblk; rw [View.read_apply]
  show V m c main_arg0 (((cfg0.win 0).blk t).view.emb _) = V m c main_arg0 _
  refine congrArg (V m c main_arg0) (funext fun ax => Fin.ext ?_)
  match ax with
  | ⟨0, _⟩ => show win0_0.index t 0 * 4 + 1 * a.val = a.val; rw [i0]; omega
  | ⟨1, _⟩ => show win0_0.index t 1 * 896 + 1 * r.val = 896 * t.val + r.val; rw [i1]; omega
  | ⟨2, _⟩ => show win0_0.index t 2 * 768 + 1 * k.val = k.val; rw [i2]; omega

/-- The table buffer after its fetch at point `t`, at such a row: the table's entry. -/
theorem fill1_apply (c : Dev nD) (t : Fin cfg0.N) (d : S896x768.Idx → Elt Ideal .f32) (r : Fin 896) (k : Fin 768)
    (hr : 896 * t.val + r.val < 8192) :
    win0_1.fill (grid0.coords t) d (iblk m c 1 t) (ix2 r k) = parr m c (ix2 ⟨896 * t.val + r.val, hr⟩ k) := by
  obtain ⟨i0, i1, x0, x1⟩ := geo1 t
  have hmv : win0_1.moved (grid0.coords t) (ix2 r k) = true := (win0_1.moved_iff _ _).mpr fun ax => by
    match ax with
    | ⟨0, _⟩ => show r.val < win0_1.xsize (grid0.coords t) 0; rw [x0]; have := r.isLt; omega
    | ⟨1, _⟩ => show k.val < win0_1.xsize (grid0.coords t) 1; rw [x1]; exact k.isLt
  unfold Window.fill; rw [dif_pos hmv]
  unfold iblk; rw [View.read_apply]
  show V m c main_arg1 (((cfg0.win 1).blk t).view.emb _) = V m c main_arg1 _
  refine congrArg (V m c main_arg1) (funext fun ax => Fin.ext ?_)
  match ax with
  | ⟨0, _⟩ => show win0_1.index t 0 * 896 + 1 * r.val = 896 * t.val + r.val; rw [i0]; omega
  | ⟨1, _⟩ => show win0_1.index t 1 * 768 + 1 * k.val = k.val; rw [i1]; omega

/-- The scale and shift buffers hold the whole vectors. -/
theorem iblk2_apply (c : Dev nD) (t : Fin cfg0.N) (k : Fin 768) : iblk m c 2 t (ix1 k) = garr m c (ix1 k) := by
  have i0 := geo2 t
  unfold iblk; rw [View.read_apply]
  show V m c main_arg2 (((cfg0.win 2).blk t).view.emb _) = V m c main_arg2 _
  refine congrArg (V m c main_arg2) (funext fun ax => Fin.ext ?_)
  match ax with
  | ⟨0, _⟩ => show win0_2.index t 0 * 768 + 1 * k.val = k.val; rw [i0]; omega
theorem iblk3_apply (c : Dev nD) (t : Fin cfg0.N) (k : Fin 768) : iblk m c 3 t (ix1 k) = barr m c (ix1 k) := by
  have i0 := geo3 t
  unfold iblk; rw [View.read_apply]
  show V m c main_arg3 (((cfg0.win 3).blk t).view.emb _) = V m c main_arg3 _
  refine congrArg (V m c main_arg3) (funext fun ax => Fin.ext ?_)
  match ax with
  | ⟨0, _⟩ => show win0_3.index t 0 * 768 + 1 * k.val = k.val; rw [i0]; omega

/-! ## What the body stores, on the rows inside the array -/

/-- Whatever the fetches left past the arrays' end (`d0`, `d1`), the rows of the stored payload that the write-back
    moves are block `t` of the result function: entry `(a, r, h)` of the payload is the normalisation of the row
    `(a, r)` of the data block plus row `r` of the table block, and for a row inside the array those are the arrays' rows
    `(a, 896·t + r)` and `896·t + r`. -/
theorem pay_cut (c : Dev nD) (t : Fin cfg0.N) (d0 : S4x896x768.Idx → Elt Ideal .f32) (d1 : S896x768.Idx → Elt Ideal .f32) :
    win0_4.cut (grid0.coords t)
        (k0_pay1 (F := Ideal) (win0_0.fill (grid0.coords t) d0 (iblk m c 0 t)) (win0_1.fill (grid0.coords t) d1 (iblk m c 1 t))
          (iblk m c 2 t) (iblk m c 3 t))
      = (win0_4.blk t).view.read (Elt Ideal) (Gout m c) := by
  obtain ⟨i0, i1, i2, x0, x1, x2⟩ := geo4 t
  funext j
  have h0 : (j 0).val < win0_4.xsize (grid0.coords t) 0 := (j 0).isLt
  have h1 : (j 1).val < win0_4.xsize (grid0.coords t) 1 := (j 1).isLt
  have h2 : (j 2).val < win0_4.xsize (grid0.coords t) 2 := (j 2).isLt
  rw [x0] at h0; rw [x1] at h1; rw [x2] at h2
  have h1' : (j 1).val < 896 := by omega
  have hr : 896 * t.val + (j 1).val < 8192 := by omega
  have hj : win0_4.xinj (grid0.coords t) j = ix3 (⟨(j 0).val, h0⟩ : Fin 4) (⟨(j 1).val, h1'⟩ : Fin 896) (⟨(j 2).val, h2⟩ : Fin 768) :=
    funext fun ax => Fin.ext (by match ax with | ⟨0, _⟩ => rfl | ⟨1, _⟩ => rfl | ⟨2, _⟩ => rfl)
  have he : (win0_4.blk t).view.emb j
      = ix3 (⟨(j 0).val, h0⟩ : Fin 4) (⟨896 * t.val + (j 1).val, hr⟩ : Fin 8192) (⟨(j 2).val, h2⟩ : Fin 768) :=
    funext fun ax => Fin.ext (by
      match ax with
      | ⟨0, _⟩ => show win0_4.index t 0 * 4 + 1 * (j 0).val = (j 0).val; rw [i0]; omega
      | ⟨1, _⟩ => show win0_4.index t 1 * 896 + 1 * (j 1).val = 896 * t.val + (j 1).val; rw [i1]; omega
      | ⟨2, _⟩ => show win0_4.index t 2 * 768 + 1 * (j 2).val = (j 2).val; rw [i2]; omega)
  show k0_pay1 (F := Ideal) _ _ _ _ (win0_4.xinj (grid0.coords t) j) = _
  rw [hj, pay_apply, View.read_apply]
  show Cert.LN.lnK _ _ _ _ = Gout m c ((win0_4.blk t).view.emb j)
  rw [he]
  unfold Gout
  rw [Cert.LN.GK_apply]
  have e1 : (fun k => win0_0.fill (grid0.coords t) d0 (iblk m c 0 t) (ix3 (⟨(j 0).val, h0⟩ : Fin 4) (⟨(j 1).val, h1'⟩ : Fin 896) k)
        + win0_1.fill (grid0.coords t) d1 (iblk m c 1 t) (ix2 (⟨(j 1).val, h1'⟩ : Fin 896) k))
      = Cert.LN.erow (xarr m c) (parr m c) (⟨(j 0).val, h0⟩ : Fin 4) (⟨896 * t.val + (j 1).val, hr⟩ : Fin 8192) :=
    funext fun k' => by rw [fill0_apply m c t d0 _ _ k' hr, fill1_apply m c t d1 _ k' hr]; rfl
  have e2 : (fun k => iblk m c 2 t (ix1 k)) = Cert.LN.grow (garr m c) := funext fun k' => iblk2_apply m c t k'
  have e3 : (fun k => iblk m c 3 t (ix1 k)) = Cert.LN.grow (barr m c) := funext fun k' => iblk3_apply m c t k'
  rw [e1, e2, e3]

/-! ## The body obligation -/

/-- What the body is called with at point `t`, the windows one by one; -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns: the three cut windows stated on the rows inside the arrays. -/
def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ (∃ d, owns (c : Thread nD τ) (st0_1 t) fullShare (win0_1.fill (grid0.coords t) d (win0_1.cut (grid0.coords t) ((dats m 0 c).after 1 t))))
    ∗ owns (c : Thread nD τ) (st0_2 t) fullShare ((dats m 0 c).after 2 t)
    ∗ owns (c : Thread nD τ) (st0_3 t) fullShare ((dats m 0 c).after 3 t)
    ∗ (∃ d, owns (c : Thread nD τ) (st0_4 t) fullShare (win0_4.fill (grid0.coords t) d (win0_4.cut (grid0.coords t) ((dats m 0 c).after 4 t)))))

/-- The body at any point: the inputs are found as `before0_W` says, the body's triple applies; each cut input,
    unchanged, is its block on the rows inside the array filled out with what the fetch left past them, and the stored
    payload agrees with block `t` of the result function on the rows the write-back moves (`pay_cut`). -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl]
  have hx0 : win0_0.cut (grid0.coords t) ((dats m 0 c).after 0 t) = iblk m c 0 t := by
    rw [after0_0]; exact win0_0.cut_fill _ _ _
  have hx1 : win0_1.cut (grid0.coords t) ((dats m 0 c).after 1 t) = iblk m c 1 t := by
    rw [after0_1]; exact win0_1.cut_fill _ _ _
  have hx4 : win0_4.cut (grid0.coords t) ((dats m 0 c).after 4 t) = (win0_4.blk t).view.read (Elt Ideal) (Gout m c) := by
    rw [after0_4]; exact win0_4.cut_fill _ _ _
  rw [hx0, hx1, hx4, after0_2, after0_3]
  iintro ⟨HΦ, Ho, ⟨%d0, H0⟩, ⟨%d1, H1⟩, ⟨%d2, H2⟩, ⟨%d3, H3⟩, ⟨%d4, H4⟩⟩
  rw [before0_0 m c t d0, before0_1 m c t d1, before0_2 m c t d2, before0_3 m c t d3]
  iapply (sound_kernel (F := Ideal) c Set.univ (grid0.coords t) _ _ _ _ _ _ _ _ _ _
    (win0_0.fill (grid0.coords t) d0 (iblk m c 0 t)) (win0_1.fill (grid0.coords t) d1 (iblk m c 1 t)) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexists d0; iexact H0
  isplitl [H1]; · iexists d1; iexact H1
  isplitl [H2]; · iexact H2
  isplitl [H3]; · iexact H3
  iexists (k0_pay1 (F := Ideal) (win0_0.fill (grid0.coords t) d0 (iblk m c 0 t)) (win0_1.fill (grid0.coords t) d1 (iblk m c 1 t))
    (iblk m c 2 t) (iblk m c 3 t))
  rw [← pay_cut m c t d0 d1, win0_4.fill_cut]
  iexact H4

/-- The library's body obligation (its form for windows whose transfers are cut). -/
theorem body_obligation (c : Dev nD) :
    BodyObligationLoose (dats m 0 c) (defs₀ (F := Ideal)) Variants.none () Set.univ := fun t => by
  rw [bigSep_W0, bigSep_W0]
  exact sound_body m c t

/-! ## The run, the frame, and the result array -/

set_option backward.isDefEq.respectTransparency.types false in
/-- Every weakly fair execution of @main terminates, and every final state has every array of the pipeline at what the
    write-backs leave and every other unscoped buffer as the region found it. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The frame of the idealized kernel. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- What point `t` writes back is block `t` of the result function. -/
theorem flushed_eq (c : Dev nD) (t : Fin cfg0.N) :
    (dats m 0 c).flushed 4 t = ((cfg0.win 4).blk t).view.read (Elt Ideal) (Gout m c) := by
  show win0_4.cut (grid0.coords t) ((dats m 0 c).after 4 t) = _
  rw [after0_4]; exact win0_4.cut_fill _ _ _

/-- The ten write-backs cover the result array, so it ends holding the result function. -/
theorem final4 (c : Dev nD) : (dats m 0 c).arrAt 4 cfg0.N = Gout m c :=
  (dats m 0 c).arrAt_eq_of_cover 4 (Gout m c) (fun t _ => flushed_eq m c t) (cover4 c)

/-- The idealized kernel's run: every weakly fair execution terminates with the result array at the result function
    of the argument arrays and the arguments unchanged. -/
theorem run : θ_run defs (onTc (τ := τ) (main (F := Ideal))) ⟨m, fun _ => 0, ρ⟩ (fun r => ∀ c : Dev nD,
      r.2.mem ((c.tc : Thread nD τ).loc main_v0) = Gout m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 4).trans (final4 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩) (run_main m ρ)

end Cert.KernelIdeal.Hand

end
-- ==== Proof.RefTerm.lean ====
/-
  The reference program's result as ONE pure term of its four argument arrays, cut into the stages its text has:
  the position indices (an iota broadcast over the batch), jnp.take of the table at them, the embeddings (data plus
  taken rows), the row mean, the centred entries, the row variance, and the normalised, scaled and shifted result.
  Each stage is the program's own operations composed, nothing evaluated.
-/
import proofs.«124209_g83047487635803_cont_sun_m_1218_11_alg».proof.Proof.Gen.ReferenceIdeal

noncomputable section

namespace Cert.ReferenceIdeal.Hand

open Cert.ReferenceIdeal Cert.ReferenceIdeal.Facts₀ Idealize.ShloMosaic

variable {F : FTy → Type} [FloatOps F]

/-- The position indices `arange(8192)` broadcast over the batch: entry `(a, r)` is `r`. -/
def posIdx : IVec S4x8192 32 :=
  broadcastInDim S4x8192 ![0, 1] bcast_S1x8192_S4x8192_0_1
    (broadcastInDim S1x8192 ![1] bcast_S8192_S1x8192_1 (iotaInDim S8192 32 0))

/-- jnp.take's index normalisation: a negative index has the axis length added. -/
def takeWrapped (idx : IVec S4x8192 32) : IVec S4x8192 32 :=
  select (cmpi .slt idx (broadcastInDim S4x8192 ![] bcast_S_S4x8192 (constantI S_ 32 0#32)))
    (addi idx (broadcastInDim S4x8192 ![] bcast_S_S4x8192 (constantI S_ 32 8192#32))) idx

/-- The gather's start indices: the wrapped indices with a trailing unit axis. -/
def takeStarts (idx : IVec S4x8192 32) : IVec S4x8192x1 32 :=
  broadcastInDim S4x8192x1 ![0, 1] bcast_S4x8192_S4x8192x1_0_1 (takeWrapped idx)

/-- jnp.take's in-bounds mask: `0 ≤ start ≤ 8191`, reduced over the unit axis. -/
def takeMask (idx : IVec S4x8192 32) : IVec S4x8192 1 :=
  Host.reduce IntOp.andi
    (andi (cmpi .sge (takeStarts idx) (broadcastInDim S4x8192x1 ![] bcast_S_S4x8192x1 (constantI S_ 32 0#32)))
      (cmpi .sle (takeStarts idx)
        (broadcastInDim S4x8192x1 ![0, 1, 2] bcast_S1x1x1_S4x8192x1_0_1_2
          (broadcastInDim S1x1x1 ![2] bcast_S1_S1x1x1_2 (constantI S1 32 8191#32)))))
    (constantI S_ 1 1#1) reducesTo_S4x8192x1_S4x8192_d2 h_S_

/-- jnp.take(table, idx, axis=0) in its default fill mode: the gathered rows where the index is in bounds, the
    fill pattern elsewhere. -/
def takeRows (p : FVec F S8192x768 .f32) (idx : IVec S4x8192 32) : FVec F S4x8192x768 .f32 :=
  select (broadcastInDim S4x8192x768 ![0, 1] bcast_S4x8192_S4x8192x768_0_1 (takeMask idx))
    (Host.gather gather_S8192x768_S4x8192x1_S4x8192x768_2_0_n_n_0_2_1768 p (takeStarts idx))
    (broadcastInDim S4x8192x768 ![] bcast_S_S4x8192x768 (constant (F := F) S_ .f32 0x7FC00000#32))

/-- The embeddings: data plus the taken table rows. -/
def embT (x : FVec F S4x8192x768 .f32) (p : FVec F S8192x768 .f32) : FVec F S4x8192x768 .f32 :=
  addf x (takeRows p posIdx)

/-- A row sum over the last axis divided by 768, kept as a column `[4, 8192, 1]`. -/
def rowMeanT (v : FVec F S4x8192x768 .f32) : FVec F S4x8192x1 .f32 :=
  Host.divf
    (broadcastInDim S4x8192x1 ![0, 1] bcast_S4x8192_S4x8192x1_0_1
      (Host.reduceAdd v (constant (F := F) S_ .f32 0x00000000#32) reducesTo_S4x8192x768_S4x8192_d2 h_S_))
    (broadcastInDim S4x8192x1 ![] bcast_S_S4x8192x1 (constant (F := F) S_ .f32 0x44400000#32))

/-- The centred entries: the array minus its row means broadcast along the rows. -/
def cenT (v : FVec F S4x8192x768 .f32) : FVec F S4x8192x768 .f32 :=
  subf v (broadcastInDim S4x8192x768 ![0, 1, 2] bcast_S4x8192x1_S4x8192x768_0_1_2 (rowMeanT v))

/-- The row variances: the row means of the squared centred entries. -/
def varT (v : FVec F S4x8192x768 .f32) : FVec F S4x8192x1 .f32 :=
  rowMeanT (mulf (cenT v) (cenT v))

/-- The normalised entries: centred entries divided by the square root of variance plus ε. -/
def normT (v : FVec F S4x8192x768 .f32) : FVec F S4x8192x768 .f32 :=
  Host.divf (cenT v)
    (broadcastInDim S4x8192x768 ![0, 1, 2] bcast_S4x8192x1_S4x8192x768_0_1_2
      (Host.sqrt (addf (varT v) (broadcastInDim S4x8192x1 ![] bcast_S_S4x8192x1 (constant (F := F) S_ .f32 0x2B8CBCCC#32)))))

/-- A `[768]` vector broadcast over batch and position. -/
def lastAxisT (g : FVec F S768 .f32) : FVec F S4x8192x768 .f32 :=
  broadcastInDim S4x8192x768 ![0, 1, 2] bcast_S1x1x768_S4x8192x768_0_1_2
    (broadcastInDim S1x1x768 ![2] bcast_S768_S1x1x768_2 g)

/-- The reference's result: layer normalisation of the embeddings' rows, scaled and shifted. -/
def refTerm (x : FVec F S4x8192x768 .f32) (p : FVec F S8192x768 .f32) (g b : FVec F S768 .f32) : FVec F S4x8192x768 .f32 :=
  addf (mulf (normT (embT x p)) (lastAxisT g)) (lastAxisT b)

end Cert.ReferenceIdeal.Hand

end
-- ==== Proof.RefRun.lean ====
/-
  The reference program's run: @main, with the functions it calls unfolded at their call sites, is a straight line of
  host operations; every weakly fair execution ends with the result buffer at those operations' composed term of the
  argument arrays (`refTerm`) and the arguments unchanged.
-/
import proofs.«124209_g83047487635803_cont_sun_m_1218_11_alg».proof.Proof.Gen.ReferenceIdeal
import proofs.«124209_g83047487635803_cont_sun_m_1218_11_alg».proof.Proof.RefTerm
import Idealize.ShloMosaic.Lib.StableHlo.Run

noncomputable section

namespace Cert.ReferenceIdeal.Hand

open Cert.ReferenceIdeal Cert.ReferenceIdeal.Facts₀ Idealize.ShloMosaic Idealize.ShloMosaic.TcCoe Idealize.SL.Sem Idealize.ShloMosaic.StableHlo

variable {F : FTy → Type} [FloatOps F]

/-- @main's fifty-six operations in order, the calls unfolded: the position indices (an iota and its two broadcasts);
    `_take`'s twenty-three over `main_call0`'s buffers — the index normalisation (a zero and the axis length broadcast,
    the comparison, the sum, and `_where`'s select into `main_call0.call0`'s buffer), the start indices, the bounds
    mask (two comparisons, their conjunction, its reduction over the unit axis), the gather, the fill pattern and
    the select between them —; then @main's own thirty: the sum with the data, the two row means, the centred entries
    (computed twice, as the text has them), the square root of variance plus ε, the quotient, scale and shift. -/
abbrev ops : List (HloOp τ sig (Elt F)) :=
  [ nullary main_v0 (iotaInDim S8192 32 0),
    unary main_v0 main_v1 (broadcastInDim S1x8192 ![1] bcast_S8192_S1x8192_1 : (⟨S8192, .i32⟩ : BufTy).Contents (Elt F) → (⟨S1x8192, .i32⟩ : BufTy).Contents (Elt F)),
    unary main_v1 main_v2 (broadcastInDim S4x8192 ![0, 1] bcast_S1x8192_S4x8192_0_1 : (⟨S1x8192, .i32⟩ : BufTy).Contents (Elt F) → (⟨S4x8192, .i32⟩ : BufTy).Contents (Elt F)),
    TRef.nullary main_call0.c (constantI S_ 32 0#32),
    TRef.unary main_call0.c main_call0.v0 (broadcastInDim S4x8192 ![] bcast_S_S4x8192),
    TRef.binary (.of main_v2 : TRef sig ⟨S4x8192, .i32⟩) main_call0.v0 main_call0.v1 (cmpi .slt),
    TRef.nullary main_call0.c_0 (constantI S_ 32 8192#32),
    TRef.unary main_call0.c_0 main_call0.v2 (broadcastInDim S4x8192 ![] bcast_S_S4x8192),
    TRef.binary (.of main_v2 : TRef sig ⟨S4x8192, .i32⟩) main_call0.v2 main_call0.v3 addi,
    TRef.ternary main_call0.v1 main_call0.v3 (.of main_v2 : TRef sig ⟨S4x8192, .i32⟩) main_call0.call0.v0 select,
    TRef.unary main_call0.call0.v0 main_call0.v5 (broadcastInDim S4x8192x1 ![0, 1] bcast_S4x8192_S4x8192x1_0_1),
    TRef.nullary main_call0.c_1 (constantI S1 32 8191#32),
    TRef.nullary main_call0.c_2 (constantI S_ 32 0#32),
    TRef.unary main_call0.c_2 main_call0.v6 (broadcastInDim S4x8192x1 ![] bcast_S_S4x8192x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4x8192x1 ![0, 1, 2] bcast_S1x1x1_S4x8192x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4x8192x1_S4x8192_d2 h_S_),
    TRef.binary (.of main_arg1 : TRef sig ⟨S8192x768, .f32⟩) main_call0.v5 main_call0.v13 (fun x i => Host.gather gather_S8192x768_S4x8192x1_S4x8192x768_2_0_n_n_0_2_1768 x i),
    TRef.unary main_call0.v12 main_call0.v14 (broadcastInDim S4x8192x768 ![0, 1] bcast_S4x8192_S4x8192x768_0_1),
    TRef.nullary main_call0.cst (constant (F := F) S_ .f32 0x7FC00000#32),
    TRef.unary main_call0.cst main_call0.v15 (broadcastInDim S4x8192x768 ![] bcast_S_S4x8192x768),
    TRef.ternary main_call0.v14 main_call0.v13 main_call0.v15 main_call0.v16 select,
    binary main_arg0 main_v3 main_v4 (addf : (⟨S4x8192x768, .f32⟩ : BufTy).Contents (Elt F) → (⟨S4x8192x768, .f32⟩ : BufTy).Contents (Elt F) → (⟨S4x8192x768, .f32⟩ : BufTy).Contents (Elt F)),
    nullary main_cst (constant (F := F) S_ .f32 0x00000000#32),
    binary main_v4 main_cst main_v5 ((fun x v => Host.reduceAdd x v reducesTo_S4x8192x768_S4x8192_d2 h_S_) : (⟨S4x8192x768, .f32⟩ : BufTy).Contents (Elt F) → (⟨S_, .f32⟩ : BufTy).Contents (Elt F) → (⟨S4x8192, .f32⟩ : BufTy).Contents (Elt F)),
    unary main_v5 main_v6 (broadcastInDim S4x8192x1 ![0, 1] bcast_S4x8192_S4x8192x1_0_1 : (⟨S4x8192, .f32⟩ : BufTy).Contents (Elt F) → (⟨S4x8192x1, .f32⟩ : BufTy).Contents (Elt F)),
    nullary main_cst_0 (constant (F := F) S_ .f32 0x44400000#32),
    unary main_cst_0 main_v7 (broadcastInDim S4x8192x1 ![] bcast_S_S4x8192x1 : (⟨S_, .f32⟩ : BufTy).Contents (Elt F) → (⟨S4x8192x1, .f32⟩ : BufTy).Contents (Elt F)),
    binary main_v6 main_v7 main_v8 (Host.divf : (⟨S4x8192x1, .f32⟩ : BufTy).Contents (Elt F) → (⟨S4x8192x1, .f32⟩ : BufTy).Contents (Elt F) → (⟨S4x8192x1, .f32⟩ : BufTy).Contents (Elt F)),
    unary main_v8 main_v9 (broadcastInDim S4x8192x768 ![0, 1, 2] bcast_S4x8192x1_S4x8192x768_0_1_2 : (⟨S4x8192x1, .f32⟩ : BufTy).Contents (Elt F) → (⟨S4x8192x768, .f32⟩ : BufTy).Contents (Elt F)),
    binary main_v4 main_v9 main_v10 (subf : (⟨S4x8192x768, .f32⟩ : BufTy).Contents (Elt F) → (⟨S4x8192x768, .f32⟩ : BufTy).Contents (Elt F) → (⟨S4x8192x768, .f32⟩ : BufTy).Contents (Elt F)),
    binary main_v10 main_v10 main_v11 (mulf : (⟨S4x8192x768, .f32⟩ : BufTy).Contents (Elt F) → (⟨S4x8192x768, .f32⟩ : BufTy).Contents (Elt F) → (⟨S4x8192x768, .f32⟩ : BufTy).Contents (Elt F)),
    nullary main_cst_1 (constant (F := F) S_ .f32 0x00000000#32),
    binary main_v11 main_cst_1 main_v12 ((fun x v => Host.reduceAdd x v reducesTo_S4x8192x768_S4x8192_d2 h_S_) : (⟨S4x8192x768, .f32⟩ : BufTy).Contents (Elt F) → (⟨S_, .f32⟩ : BufTy).Contents (Elt F) → (⟨S4x8192, .f32⟩ : BufTy).Contents (Elt F)),
    unary main_v12 main_v13 (broadcastInDim S4x8192x1 ![0, 1] bcast_S4x8192_S4x8192x1_0_1 : (⟨S4x8192, .f32⟩ : BufTy).Contents (Elt F) → (⟨S4x8192x1, .f32⟩ : BufTy).Contents (Elt F)),
    nullary main_cst_2 (constant (F := F) S_ .f32 0x44400000#32),
    unary main_cst_2 main_v14 (broadcastInDim S4x8192x1 ![] bcast_S_S4x8192x1 : (⟨S_, .f32⟩ : BufTy).Contents (Elt F) → (⟨S4x8192x1, .f32⟩ : BufTy).Contents (Elt F)),
    binary main_v13 main_v14 main_v15 (Host.divf : (⟨S4x8192x1, .f32⟩ : BufTy).Contents (Elt F) → (⟨S4x8192x1, .f32⟩ : BufTy).Contents (Elt F) → (⟨S4x8192x1, .f32⟩ : BufTy).Contents (Elt F)),
    unary main_v8 main_v16 (broadcastInDim S4x8192x768 ![0, 1, 2] bcast_S4x8192x1_S4x8192x768_0_1_2 : (⟨S4x8192x1, .f32⟩ : BufTy).Contents (Elt F) → (⟨S4x8192x768, .f32⟩ : BufTy).Contents (Elt F)),
    binary main_v4 main_v16 main_v17 (subf : (⟨S4x8192x768, .f32⟩ : BufTy).Contents (Elt F) → (⟨S4x8192x768, .f32⟩ : BufTy).Contents (Elt F) → (⟨S4x8192x768, .f32⟩ : BufTy).Contents (Elt F)),
    nullary main_cst_3 (constant (F := F) S_ .f32 0x2B8CBCCC#32),
    unary main_cst_3 main_v18 (broadcastInDim S4x8192x1 ![] bcast_S_S4x8192x1 : (⟨S_, .f32⟩ : BufTy).Contents (Elt F) → (⟨S4x8192x1, .f32⟩ : BufTy).Contents (Elt F)),
    binary main_v15 main_v18 main_v19 (addf : (⟨S4x8192x1, .f32⟩ : BufTy).Contents (Elt F) → (⟨S4x8192x1, .f32⟩ : BufTy).Contents (Elt F) → (⟨S4x8192x1, .f32⟩ : BufTy).Contents (Elt F)),
    unary main_v19 main_v20 (Host.sqrt : (⟨S4x8192x1, .f32⟩ : BufTy).Contents (Elt F) → (⟨S4x8192x1, .f32⟩ : BufTy).Contents (Elt F)),
    unary main_v20 main_v21 (broadcastInDim S4x8192x768 ![0, 1, 2] bcast_S4x8192x1_S4x8192x768_0_1_2 : (⟨S4x8192x1, .f32⟩ : BufTy).Contents (Elt F) → (⟨S4x8192x768, .f32⟩ : BufTy).Contents (Elt F)),
    binary main_v17 main_v21 main_v22 (Host.divf : (⟨S4x8192x768, .f32⟩ : BufTy).Contents (Elt F) → (⟨S4x8192x768, .f32⟩ : BufTy).Contents (Elt F) → (⟨S4x8192x768, .f32⟩ : BufTy).Contents (Elt F)),
    unary main_arg2 main_v23 (broadcastInDim S1x1x768 ![2] bcast_S768_S1x1x768_2 : (⟨S768, .f32⟩ : BufTy).Contents (Elt F) → (⟨S1x1x768, .f32⟩ : BufTy).Contents (Elt F)),
    unary main_v23 main_v24 (broadcastInDim S4x8192x768 ![0, 1, 2] bcast_S1x1x768_S4x8192x768_0_1_2 : (⟨S1x1x768, .f32⟩ : BufTy).Contents (Elt F) → (⟨S4x8192x768, .f32⟩ : BufTy).Contents (Elt F)),
    binary main_v22 main_v24 main_v25 (mulf : (⟨S4x8192x768, .f32⟩ : BufTy).Contents (Elt F) → (⟨S4x8192x768, .f32⟩ : BufTy).Contents (Elt F) → (⟨S4x8192x768, .f32⟩ : BufTy).Contents (Elt F)),
    unary main_arg3 main_v26 (broadcastInDim S1x1x768 ![2] bcast_S768_S1x1x768_2 : (⟨S768, .f32⟩ : BufTy).Contents (Elt F) → (⟨S1x1x768, .f32⟩ : BufTy).Contents (Elt F)),
    unary main_v26 main_v27 (broadcastInDim S4x8192x768 ![0, 1, 2] bcast_S1x1x768_S4x8192x768_0_1_2 : (⟨S1x1x768, .f32⟩ : BufTy).Contents (Elt F) → (⟨S4x8192x768, .f32⟩ : BufTy).Contents (Elt F)),
    binary main_v25 main_v27 main_v28 (addf : (⟨S4x8192x768, .f32⟩ : BufTy).Contents (Elt F) → (⟨S4x8192x768, .f32⟩ : BufTy).Contents (Elt F) → (⟨S4x8192x768, .f32⟩ : BufTy).Contents (Elt F)) ]

set_option maxRecDepth 2048 in
/-- @main is that straight line: the functions' definitions unfolded at their calls and the records at their fields,
    both sides are one chain of host steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., unary_bufs_sub .., nullary_bufs_sub .., unary_bufs_sub .., binary_bufs_sub ..,
    nullary_bufs_sub .., unary_bufs_sub .., binary_bufs_sub .., ternary_bufs_sub .., unary_bufs_sub .., nullary_bufs_sub ..,
    nullary_bufs_sub .., unary_bufs_sub .., binary_bufs_sub .., unary_bufs_sub .., unary_bufs_sub .., binary_bufs_sub ..,
    binary_bufs_sub .., nullary_bufs_sub .., binary_bufs_sub .., binary_bufs_sub .., unary_bufs_sub .., nullary_bufs_sub ..,
    unary_bufs_sub .., ternary_bufs_sub .., binary_bufs_sub .., nullary_bufs_sub .., binary_bufs_sub .., unary_bufs_sub ..,
    nullary_bufs_sub .., unary_bufs_sub .., binary_bufs_sub .., unary_bufs_sub .., binary_bufs_sub .., binary_bufs_sub ..,
    nullary_bufs_sub .., binary_bufs_sub .., unary_bufs_sub .., nullary_bufs_sub .., unary_bufs_sub .., binary_bufs_sub ..,
    unary_bufs_sub .., binary_bufs_sub .., nullary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub ..⟩

attribute [local irreducible] Host.reduce Host.gather Host.reduceAdd in
set_option maxRecDepth 8192 in
/-- The fold at the result buffer is `refTerm` of the argument arrays: each operation's result read at its own buffer
    is its function of its operands' contents, and at any other buffer what was there; a value of a called function
    is carried through its buffer's type unchanged; what remains is the stages of `refTerm` written out, the same term
    on both sides. The two reductions and the gather stay folded throughout: the equation never looks inside them. -/
theorem out_eq (V : Valuation τ sig (Elt F)) :
    after ops V (main_v28 : DevRef τ sig)
      = refTerm (V (main_arg0 : DevRef τ sig)) (V (main_arg1 : DevRef τ sig)) (V (main_arg2 : DevRef τ sig))
          (V (main_arg3 : DevRef τ sig)) := by
  after_results_simp
  simp only [TRef.ofBuf, TRef.toBuf, cast_eq]
  unfold refTerm normT varT cenT rowMeanT embT takeRows takeMask takeStarts takeWrapped posIdx lastAxisT
  rfl

/-- No operation writes an argument's buffer: the fold leaves each at its launch contents. -/
theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp

/-- On every device, for any float values, from any memory with zero counters: every weakly fair execution of @main
    terminates with the result buffer at `refTerm` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v28)
          = refTerm (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v28).trans (out_eq _),
      (h c main_arg0).trans (arg0_eq _),
      (h c main_arg1).trans (arg1_eq _),
      (h c main_arg2).trans (arg2_eq _),
      (h c main_arg3).trans (arg3_eq _)⟩)
    (run_seq scopedRefs_eq scopedSems_eq defs main (fun _ => ops) main_eq (fun _ => ops_sub) m ρ)

end Cert.ReferenceIdeal.Hand

end
-- ==== Proof.RefValue.lean ====
/-
  The reference's term read at every index, at the extended reals: the taken table rows are the table's own rows (the
  indices are 0 … 8191, all in bounds, so the mask is all ones and the gather reads row `r`), and the rest is the layer
  normalisation of the row `x[a, r, ·] + p[r, ·]` in the reference's spelling.
-/
import proofs.«124209_g83047487635803_cont_sun_m_1218_11_alg».proof.Proof.RefTerm
import proofs.«124209_g83047487635803_cont_sun_m_1218_11_alg».proof.Proof.LNSpec
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws

noncomputable section

namespace Cert.ReferenceIdeal.Hand

open Cert.ReferenceIdeal Cert.ReferenceIdeal.Facts₀ Idealize.ShloMosaic Idealize.ShloMosaic.ValueIdx

/-! ## The position indices and their wrapped form -/

/-- The position index at batch entry `a`, position `r` is the word `r`. -/
theorem posIdx_apply (a : Fin 4) (r : Fin 8192) : posIdx (ix2 a r) = BitVec.ofNat 32 r.val := by
  unfold posIdx
  refine (broadcastInDim_apply _ _ _ (ix2 a r) (ix2 (0 : Fin 1) r) ?_).trans ?_
  · intro c
    match c with
    | ⟨0, _⟩ => rfl
    | ⟨1, _⟩ => rfl
  refine (broadcastInDim_apply _ _ _ (ix2 (0 : Fin 1) r) (ix1 r) ?_).trans ?_
  · intro c
    match c with
    | ⟨0, _⟩ => rfl
  rfl

/-- A word below 8192 read signed is itself. -/
theorem toInt_small (r : Nat) (hr : r < 8192) : (BitVec.ofNat 32 r).toInt = (r : Int) :=
  StableHlo.Predicate.toInt_ofNat_small r (by omega)

/-- A word `r < 8192` is not negative, so the index normalisation leaves it alone. -/
theorem wrap_word (r : Nat) (hr : r < 8192) :
    Scalar.select (IntOp.cmpi .slt (BitVec.ofNat 32 r) 0#32) (IntOp.addi (BitVec.ofNat 32 r) 8192#32) (BitVec.ofNat 32 r)
      = BitVec.ofNat 32 r := by
  have h0 : IntOp.cmpi .slt (BitVec.ofNat 32 r) 0#32 = 0#1 := by
    refine eq_zero_of_ne_one fun h1 => ?_
    have h2 := IntOp.cmpi_slt.mp h1
    rw [toInt_small r hr] at h2
    have h3 : (0#32 : BitVec 32).toInt = 0 := by decide
    omega
  rw [h0, select_zero]

/-- The wrapped position index at `(a, r)` is still the word `r`. -/
theorem takeWrapped_posIdx_apply (a : Fin 4) (r : Fin 8192) : takeWrapped posIdx (ix2 a r) = BitVec.ofNat 32 r.val := by
  show Scalar.select (IntOp.cmpi .slt (posIdx (ix2 a r)) 0#32) (IntOp.addi (posIdx (ix2 a r)) 8192#32) (posIdx (ix2 a r)) = _
  rw [posIdx_apply]
  exact wrap_word r.val r.isLt

/-- The gather's start index at `(a, r, 0)` is the word `r`. -/
theorem takeStarts_posIdx_apply (a : Fin 4) (r : Fin 8192) (c : Fin 1) :
    takeStarts posIdx (ix3 a r c) = BitVec.ofNat 32 r.val := by
  unfold takeStarts
  refine (broadcastInDim_apply _ _ _ (ix3 a r c) (ix2 a r) ?_).trans (takeWrapped_posIdx_apply a r)
  intro d
  match d with
  | ⟨0, _⟩ => rfl
  | ⟨1, _⟩ => rfl

/-! ## The in-bounds mask -/

/-- Folding `and` from the bit `1` over entries that are all `1` gives `1`. -/
theorem foldl_andi_ones {ι : Type} (f : ι → BitVec 1) (hf : ∀ n, f n = 1#1) (l : List ι) :
    l.foldl (fun r n => IntOp.andi r (f n)) 1#1 = 1#1 := by
  induction l with
  | nil => rfl
  | cons n l ih =>
    rw [List.foldl_cons, hf n]
    exact ih

/-- An `and`-reduction, from the bit `1`, of an array whose entries are all `1` is `1` at every index. -/
theorem reduce_andi_ones {s t u : Shape} {axes : List (Fin s.rank)} (x : IVec s 1) (init : IVec u 1)
    (h : s.ReducesTo axes t) (hu : 0 < u.numel) (hx : ∀ i, x i = 1#1) (hi : init (Shape.Idx.first hu) = 1#1) (j : t.Idx) :
    Host.reduce IntOp.andi x init h hu j = 1#1 := by
  unfold Host.reduce
  rw [hi]
  exact foldl_andi_ones (fun n => x (s.rowMajor.symm n)) (fun n => hx _) _

/-- Every position index is in bounds: the mask is `1` everywhere. -/
theorem takeMask_posIdx_apply (j : S4x8192.Idx) : takeMask posIdx j = 1#1 := by
  unfold takeMask
  refine reduce_andi_ones _ _ _ _ (fun i => ?_) rfl j
  obtain ⟨a, r, c, rfl⟩ : ∃ (a : Fin 4) (r : Fin 8192) (c : Fin 1), i = ix3 a r c := ⟨i 0, i 1, i 2, eq_ix3 i⟩
  show IntOp.andi (IntOp.cmpi .sge (takeStarts posIdx (ix3 a r c)) 0#32)
    (IntOp.cmpi .sle (takeStarts posIdx (ix3 a r c)) 8191#32) = 1#1
  rw [takeStarts_posIdx_apply]
  have h0 : (0#32 : BitVec 32).toInt = 0 := by decide
  have h1 : (8191#32 : BitVec 32).toInt = 8191 := by decide
  have hr := r.isLt
  refine IntOp.andi_eq_one.mpr ⟨IntOp.cmpi_sge.mpr ?_, IntOp.cmpi_sle.mpr ?_⟩
  · rw [toInt_small r.val hr, h0]; omega
  · rw [toInt_small r.val hr, h1]; omega

/-! ## The gathered rows -/

local notation "gD" => gather_S8192x768_S4x8192x1_S4x8192x768_2_0_n_n_0_2_1768

/-- The gather read at `(a, r, h)`: the table at row `start[a, r, 0]` (read signed and clamped into `0 … 8191`) and
    column `h`. Axis 0 of the table is collapsed and indexed by the start index; axis 1 is the result's offset axis. -/
theorem gather_row_apply {α : Type} {w : Nat} (p : S8192x768.Idx → α) (idx : IVec S4x8192x1 w)
    (a : Fin 4) (r : Fin 8192) (h : Fin 768) :
    Host.gather gD p idx (ix3 a r h)
      = p (ix2 (⟨min (idx (ix3 a r (0 : Fin 1))).toInt.toNat 8191, by omega⟩ : Fin 8192) h) := by
  unfold Host.gather
  refine congrArg p (funext fun c => Fin.ext ?_)
  match c with
  | ⟨0, _⟩ =>
    show GatherDims.start gD (ix3 a r h) idx 0 + GatherDims.batchCoord gD (ix3 a r h) 0
        + GatherDims.offCoord gD (ix3 a r h) 0 = min (idx (ix3 a r (0 : Fin 1))).toInt.toNat 8191
    rw [GatherDims.batchCoord_eq_zero _ _ _ List.not_mem_nil,
      GatherDims.offCoord_eq_zero _ _ _ (fun hm => ((GatherDims.mem_sKept _ _).mp hm).1 (List.mem_singleton.mpr rfl))]
    simp only [Nat.add_zero]
    unfold GatherDims.start
    rw [dif_pos (show (0 : Fin 2) ∈ GatherDims.startIndexMap gD from List.mem_singleton.mpr rfl)]
    have hsi : GatherDims.siIdx gD (ix3 a r h) ⟨List.idxOf (0 : Fin 2) (GatherDims.startIndexMap gD),
        List.idxOf_lt_length_iff.2 (List.mem_singleton.mpr rfl)⟩ = ix3 a r (0 : Fin 1) := by
      funext b; refine Fin.ext ?_
      match b with
      | ⟨0, _⟩ => rfl
      | ⟨1, _⟩ => rfl
      | ⟨2, _⟩ => rfl
    rw [hsi]
    rfl
  | ⟨1, _⟩ =>
    show GatherDims.start gD (ix3 a r h) idx 1 + GatherDims.batchCoord gD (ix3 a r h) 1
        + GatherDims.offCoord gD (ix3 a r h) 1 = h.val
    have hs : GatherDims.start gD (ix3 a r h) idx 1 = 0 := by
      unfold GatherDims.start
      rw [dif_neg (show (1 : Fin 2) ∉ GatherDims.startIndexMap gD from
        fun hm => absurd (List.mem_singleton.mp hm) (by decide))]
    have ho : GatherDims.offCoord gD (ix3 a r h) 1 = h.val := by
      unfold GatherDims.offCoord
      rw [dif_pos (show (1 : Fin 2) ∈ GatherDims.sKept gD from (GatherDims.mem_sKept gD 1).mpr
        ⟨fun hm => absurd (List.mem_singleton.mp hm) (by decide), List.not_mem_nil⟩)]
      rfl
    rw [hs, ho, GatherDims.batchCoord_eq_zero _ _ _ List.not_mem_nil]
    omega

/-- The taken rows at the position indices are the table's own rows: the mask is `1`, so the select keeps the
    gather, and the gather's start index `r` is already inside `0 … 8191`. -/
theorem takeRows_posIdx_apply (p : FVec Ideal S8192x768 .f32) (a : Fin 4) (r : Fin 8192) (h : Fin 768) :
    takeRows (F := Ideal) p posIdx (ix3 a r h) = p (ix2 r h) := by
  unfold takeRows
  refine (select_apply _ _ _ _).trans ?_
  have hm : broadcastInDim S4x8192x768 ![0, 1] bcast_S4x8192_S4x8192x768_0_1 (takeMask posIdx) (ix3 a r h) = 1#1 := by
    refine (broadcastInDim_apply _ _ _ (ix3 a r h) (ix2 a r) ?_).trans (takeMask_posIdx_apply _)
    intro d
    match d with
    | ⟨0, _⟩ => rfl
    | ⟨1, _⟩ => rfl
  rw [hm, select_one, gather_row_apply]
  refine congrArg p (funext fun c => ?_)
  match c with
  | ⟨0, _⟩ =>
    refine Fin.ext ?_
    show min (takeStarts posIdx (ix3 a r (0 : Fin 1))).toInt.toNat 8191 = r.val
    rw [takeStarts_posIdx_apply, toInt_small r.val r.isLt]
    have := r.isLt
    omega
  | ⟨1, _⟩ => rfl

/-! ## The layer normalisation of a row, stage by stage -/

/-- The last axis of the data's shape reduces away to the `[4, 8192]` shape; this names the index with a coordinate
    put back on that axis. -/
theorem reduces_last : S4x8192x768.Reduces [2] S4x8192 := by decide

/-- Putting coordinate `k` back on the last axis of `(a, r)` is the index `(a, r, k)`. -/
theorem lift_last (a : Fin 4) (r : Fin 8192) (k : Fin 768) : reduces_last.lift (ix2 a r) k = ix3 a r k := by
  funext c
  refine Fin.ext ?_
  match c with
  | ⟨0, _⟩ => rfl
  | ⟨1, _⟩ => rfl
  | ⟨2, _⟩ => rfl

/-- The row mean column at `(a, r, 0)` is the mean of the row `v[a, r, ·]`: the sum starts from the pattern of zero. -/
theorem rowMeanT_apply (v : FVec Ideal S4x8192x768 .f32) (a : Fin 4) (r : Fin 8192) (c : Fin 1) :
    rowMeanT (F := Ideal) v (ix3 a r c) = Cert.LN.mean (fun k => v (ix3 a r k)) := by
  unfold rowMeanT Cert.LN.mean
  show Ideal.div (broadcastInDim S4x8192x1 ![0, 1] bcast_S4x8192_S4x8192x1_0_1
      (Host.reduceAdd v (constant (F := Ideal) S_ .f32 0x00000000#32) reducesTo_S4x8192x768_S4x8192_d2 h_S_) (ix3 a r c))
    (Ideal.ofBits .f32 0x44400000#32) = Ideal.div (∑ k : Fin 768, v (ix3 a r k)) Cert.LN.c768
  refine congrArg₂ Ideal.div ?_ rfl
  refine (broadcastInDim_apply _ _ _ (ix3 a r c) (ix2 a r) ?_).trans ?_
  · intro d
    match d with
    | ⟨0, _⟩ => rfl
    | ⟨1, _⟩ => rfl
  show Ideal.hostReduceAdd reducesTo_S4x8192x768_S4x8192_d2 v (Ideal.ofBits .f32 0x00000000#32) (ix2 a r) = _
  rw [Ideal.hostReduceAdd_single _ reduces_last, Ideal.ofBits_zero_f32, zero_add]
  exact Finset.sum_congr rfl fun k _ => congrArg v (lift_last a r k)

/-- A column `[4, 8192, 1]` broadcast along the rows reads its entry `(a, r, 0)` at every `(a, r, h)`. -/
theorem bcastCol_apply {α : Type} (m : S4x8192x1.Idx → α) (a : Fin 4) (r : Fin 8192) (h : Fin 768) :
    broadcastInDim S4x8192x768 ![0, 1, 2] bcast_S4x8192x1_S4x8192x768_0_1_2 m (ix3 a r h) = m (ix3 a r (0 : Fin 1)) := by
  refine broadcastInDim_apply _ _ _ (ix3 a r h) (ix3 a r (0 : Fin 1)) ?_
  intro d
  match d with
  | ⟨0, _⟩ => rfl
  | ⟨1, _⟩ => rfl
  | ⟨2, _⟩ => rfl

/-- The centred entry at `(a, r, h)` is the row's centred entry `h`. -/
theorem cenT_apply (v : FVec Ideal S4x8192x768 .f32) (a : Fin 4) (r : Fin 8192) (h : Fin 768) :
    cenT (F := Ideal) v (ix3 a r h) = Cert.LN.cen (fun k => v (ix3 a r k)) h := by
  unfold cenT Cert.LN.cen
  rw [subf_apply, bcastCol_apply, rowMeanT_apply]

/-- The variance column at `(a, r, 0)` is the row's variance. -/
theorem varT_apply (v : FVec Ideal S4x8192x768 .f32) (a : Fin 4) (r : Fin 8192) (c : Fin 1) :
    varT (F := Ideal) v (ix3 a r c) = Cert.LN.var (fun k => v (ix3 a r k)) := by
  unfold varT Cert.LN.var
  rw [rowMeanT_apply]
  unfold Cert.LN.mean
  refine congrArg₂ Ideal.div (Finset.sum_congr rfl fun k _ => ?_) rfl
  show cenT (F := Ideal) v (ix3 a r k) * cenT (F := Ideal) v (ix3 a r k) = _
  rw [cenT_apply]

/-- The normalised entry at `(a, r, h)`: the centred entry divided by the square root of variance plus ε. -/
theorem normT_apply (v : FVec Ideal S4x8192x768 .f32) (a : Fin 4) (r : Fin 8192) (h : Fin 768) :
    normT (F := Ideal) v (ix3 a r h)
      = Ideal.div (Cert.LN.cen (fun k => v (ix3 a r k)) h)
          (Ideal.sqrt (Cert.LN.var (fun k => v (ix3 a r k)) + Cert.LN.ceps)) := by
  unfold normT
  refine congrArg₂ Ideal.div (cenT_apply v a r h) ((bcastCol_apply _ a r h).trans ?_)
  show Ideal.sqrt (varT (F := Ideal) v (ix3 a r (0 : Fin 1)) + Ideal.ofBits .f32 0x2B8CBCCC#32) = _
  rw [varT_apply]
  rfl

/-- A `[768]` vector broadcast over batch and position reads its entry `h` at `(a, r, h)`. -/
theorem lastAxisT_apply (g : FVec Ideal S768 .f32) (a : Fin 4) (r : Fin 8192) (h : Fin 768) :
    lastAxisT (F := Ideal) g (ix3 a r h) = Cert.LN.grow g h := by
  unfold lastAxisT Cert.LN.grow
  refine (broadcastInDim_apply _ _ _ (ix3 a r h) (ix3 (0 : Fin 1) (0 : Fin 1) h) ?_).trans ?_
  · intro d
    match d with
    | ⟨0, _⟩ => rfl
    | ⟨1, _⟩ => rfl
    | ⟨2, _⟩ => rfl
  refine broadcastInDim_apply _ _ _ (ix3 (0 : Fin 1) (0 : Fin 1) h) (ix1 h) ?_
  intro d
  match d with
  | ⟨0, _⟩ => rfl

/-! ## The embeddings, and the whole result -/

/-- The embeddings at `(a, r, k)`: the data's entry plus the table's row `r` at `k`. -/
theorem embT_apply (x : FVec Ideal S4x8192x768 .f32) (p : FVec Ideal S8192x768 .f32) (a : Fin 4) (r : Fin 8192)
    (k : Fin 768) : embT (F := Ideal) x p (ix3 a r k) = Cert.LN.erow x p a r k := by
  unfold embT Cert.LN.erow
  rw [addf_apply, takeRows_posIdx_apply]

theorem refTerm_eq_G (x : FVec Ideal S4x8192x768 .f32) (p : FVec Ideal S8192x768 .f32) (g b : FVec Ideal S768 .f32) :
    refTerm (F := Ideal) x p g b = Cert.LN.G x p g b := by
  funext i
  obtain ⟨a, r, h, rfl⟩ : ∃ (a : Fin 4) (r : Fin 8192) (h : Fin 768), i = ix3 a r h := ⟨i 0, i 1, i 2, eq_ix3 i⟩
  rw [Cert.LN.G_apply]
  unfold refTerm Cert.LN.lnR
  rw [addf_apply, mulf_apply, normT_apply, lastAxisT_apply, lastAxisT_apply]
  have hrow : (fun k => embT (F := Ideal) x p (ix3 a r k)) = Cert.LN.erow x p a r :=
    funext fun k => embT_apply x p a r k
  rw [hrow]

end Cert.ReferenceIdeal.Hand

end
-- ==== Proof.LNLaw.lean ====
/-
  The law that joins the two spellings of layer normalisation. For a row of REAL numbers the variance is a nonnegative
  real, so `variance + ε` is a positive real `v`; then the reciprocal square root is the real `(√v)⁻¹`, the square root
  is the nonzero real `√v`, and dividing by `√v` is multiplying by `(√v)⁻¹`. At infinite entries the two spellings can
  differ (`0 · ⊤` against `0 / 0`), which is why the rows are asked to be real.
-/
import proofs.«124209_g83047487635803_cont_sun_m_1218_11_alg».proof.Proof.LNSpec
import Idealize.ShloMosaic.PureOps.Ideal.Laws

noncomputable section

namespace Cert.LN

open Idealize.ShloMosaic Idealize.ShloMosaic.ValueIdx

/-- The divisor's pattern denotes the real number 768. -/
theorem c768_eq : c768 = ((768 : ℝ) : EReal) := by
  unfold c768
  simp [Ideal.ofBits, Ideal.ieee, -EReal.coe_mul]; norm_num

/-- The ε pattern denotes a positive real (a positive significand times a power of two). -/
theorem ceps_pos : ∃ ε : ℝ, 0 < ε ∧ ceps = (ε : EReal) := by
  unfold ceps
  simp [Ideal.ofBits, Ideal.ieee, -EReal.coe_mul]

/-- A finite sum of reals, taken in the extended reals, is the real sum. -/
theorem sum_coe (s : Finset (Fin 768)) (f : Fin 768 → ℝ) :
    (∑ k ∈ s, ((f k : ℝ) : EReal)) = ((∑ k ∈ s, f k : ℝ) : EReal) := by
  induction s using Finset.induction_on with
  | empty => simp
  | insert a s ha ih => rw [Finset.sum_insert ha, Finset.sum_insert ha, ih, EReal.coe_add]

/-- The mean of a real row is the real mean. -/
theorem mean_coe (r : Fin 768 → ℝ) :
    mean (fun k => ((r k : ℝ) : EReal)) = (((∑ k, r k) * (1 / 768) : ℝ) : EReal) := by
  unfold mean
  rw [c768_eq, Ideal.div_coe (by norm_num : (768 : ℝ) ≠ 0), sum_coe, ← EReal.coe_mul]

/-- A centred entry of a real row is real. -/
theorem cen_coe (r : Fin 768 → ℝ) (h : Fin 768) :
    cen (fun k => ((r k : ℝ) : EReal)) h = ((r h - (∑ k, r k) * (1 / 768) : ℝ) : EReal) := by
  unfold cen
  rw [mean_coe, ← EReal.coe_sub]

/-- The variance of a real row is a nonnegative real. -/
theorem var_coe (r : Fin 768 → ℝ) :
    ∃ v : ℝ, 0 ≤ v ∧ var (fun k => ((r k : ℝ) : EReal)) = (v : EReal) := by
  refine ⟨(∑ k, (r k - (∑ j, r j) * (1 / 768)) * (r k - (∑ j, r j) * (1 / 768))) * (1 / 768), ?_, ?_⟩
  · apply mul_nonneg
    · exact Finset.sum_nonneg (fun k _ => mul_self_nonneg _)
    · norm_num
  · unfold var
    rw [c768_eq, Ideal.div_coe (by norm_num : (768 : ℝ) ≠ 0)]
    have hs : (∑ k : Fin 768, cen (fun k => ((r k : ℝ) : EReal)) k * cen (fun k => ((r k : ℝ) : EReal)) k)
        = ∑ k : Fin 768, (((r k - (∑ j, r j) * (1 / 768)) * (r k - (∑ j, r j) * (1 / 768)) : ℝ) : EReal) := by
      refine Finset.sum_congr rfl (fun k _ => ?_)
      rw [cen_coe, ← EReal.coe_mul]
    rw [hs, sum_coe, ← EReal.coe_mul]

theorem lnK_eq_lnR (e g b : Fin 768 → EReal) (he : ∀ k, ∃ r : ℝ, e k = (r : EReal)) : lnK e g b = lnR e g b := by
  choose r hr using he
  obtain rfl : e = fun k => ((r k : ℝ) : EReal) := funext hr
  obtain ⟨v, hv0, hv⟩ := var_coe r
  obtain ⟨ε, hε0, hε⟩ := ceps_pos
  have hw : 0 < v + ε := by linarith
  have hs : Real.sqrt (v + ε) ≠ 0 := (Real.sqrt_pos.mpr hw).ne'
  funext h
  unfold lnK lnR
  rw [hv, hε, ← EReal.coe_add, Ideal.rsqrt_coe, Ideal.sqrt_coe, if_neg (not_lt.mpr hw.le), if_neg hw.ne',
    if_neg (not_lt.mpr hw.le), Ideal.div_coe hs, one_div]

theorem GK_eq_G (x : SX.Idx → EReal) (p : SP.Idx → EReal) (g b : SG.Idx → EReal)
    (hx : ∀ i, ∃ r : ℝ, x i = (r : EReal)) (hp : ∀ i, ∃ r : ℝ, p i = (r : EReal)) : GK x p g b = G x p g b := by
  funext i
  unfold GK G
  refine congrFun (lnK_eq_lnR _ _ _ (fun k => ?_)) _
  obtain ⟨a, ha⟩ := hx (ix3 (i 0) (i 1) k)
  obtain ⟨c, hc⟩ := hp (ix2 (i 1) k)
  exact ⟨a + c, by unfold erow; rw [ha, hc, EReal.coe_add]⟩

end Cert.LN

end
-- ==== Proof.Finite.lean ====
/-
  What the precondition says: where `finite_inputs` of the four argument arrays is all ones, every entry of the data
  array and of the position table is a real number (its absolute value is below +∞).
-/
import proofs.«124209_g83047487635803_cont_sun_m_1218_11_alg».proof.Proof.Gen.Pre_finite_inputs
import Idealize.ShloMosaic.Lib.ReduceAll
import Idealize.ShloMosaic.Lib.ValueIdx
import Idealize.ShloMosaic.PureOps.Ideal.Laws

noncomputable section

namespace Cert.Pre_finite_inputs.Hand

open Cert.Pre_finite_inputs Idealize.ShloMosaic Idealize.ShloMosaic.ValueIdx

/-- The pattern the predicate compares against denotes `+∞`. -/
theorem top_eq : Ideal.ofBits .f32 0x7F800000#32 = (⊤ : EReal) := by
  simp [Ideal.ofBits, Ideal.ieee]

/-- An extended real whose absolute value `max a (-a)` is strictly below `+∞` is a real number: at `⊥` and at `⊤`
    the absolute value is `⊤`, which is not below itself. -/
theorem real_of_abs_lt (a : EReal) (h : Ideal.cmp .olt (max a (-a)) (Ideal.ofBits .f32 0x7F800000#32) = 1#1) :
    ∃ r : ℝ, a = (r : EReal) := by
  rw [top_eq] at h
  induction a using EReal.rec with
  | bot => simp [Ideal.cmp] at h
  | coe r => exact ⟨r, rfl⟩
  | top => simp [Ideal.cmp] at h

theorem real_of_pre (x : FVec Ideal S4x8192x768 .f32) (p : FVec Ideal S8192x768 .f32) (g b : FVec Ideal S768 .f32)
    (h : Cert.Pre_finite_inputs.fn (F := Ideal) x p g b = fun _ => 1#1) :
    (∀ i, ∃ r : ℝ, x i = (r : EReal)) ∧ (∀ i, ∃ r : ℝ, p i = (r : EReal)) := by
  haveI : Subsingleton S_.Idx := ⟨fun a b => funext fun d => d.elim0⟩
  have h0 := congrFun h ValueIdx.ix0
  dsimp only [fn, fn_part1] at h0
  -- the conjunction of the four `all`s: only the first two are needed
  obtain ⟨h123, _⟩ := IntOp.andi_eq_one.1 h0
  obtain ⟨h12, _⟩ := IntOp.andi_eq_one.1 h123
  obtain ⟨h1, h2⟩ := IntOp.andi_eq_one.1 h12
  exact ⟨fun i => real_of_abs_lt (x i) (Host.reduce_andi_all _ _ _ _ ix0 h1 i),
    fun i => real_of_abs_lt (p i) (Host.reduce_andi_all _ _ _ _ ix0 h2 i)⟩

end Cert.Pre_finite_inputs.Hand

end
-- ==== Proof.lean ====
/-
  The certificate of a fused "add position embeddings, then layer-normalise" kernel against its jnp reference.

  The kernel walks the 8192 positions in ten blocks of 896 rows (the last block overhangs the arrays by 768 rows: its
  fetches and its write-back are cut at the arrays' end), carrying all four batch entries in each block; per row it adds
  the position table's row, subtracts the row mean, multiplies by the reciprocal square root of the row variance plus ε,
  scales by γ and shifts by β. The reference takes the table's rows with `jnp.take` at the positions `0 … 8191` (all in
  bounds, so the taken rows are the table's rows), and DIVIDES the centred row by the square root of variance plus ε.

  At the extended reals the two agree wherever every entry of the data and of the table is a real number, which the
  precondition says: the variance of a real row is a nonnegative real, so variance plus ε is a positive real `v`, and
  dividing by `√v` is multiplying by `(√v)⁻¹`. (At infinite entries the two spellings can differ.) The kernel's result
  array is read off its frame run: on the rows inside the array each written-back block is the block of one whole-array
  function, and the ten write-backs cover the array; the reference's result is its operations' composed term read at
  every index. The word-level kernel's frame follows nothing of what the body computes.
-/
import proofs.«124209_g83047487635803_cont_sun_m_1218_11_alg».proof.Defs
import proofs.«124209_g83047487635803_cont_sun_m_1218_11_alg».proof.Proof.Gen.Kernel
import proofs.«124209_g83047487635803_cont_sun_m_1218_11_alg».proof.Proof.Gen.KernelIdeal
import proofs.«124209_g83047487635803_cont_sun_m_1218_11_alg».proof.Proof.Gen.ReferenceIdeal
import proofs.«124209_g83047487635803_cont_sun_m_1218_11_alg».proof.Proof.Gen.Pre_finite_inputs
import proofs.«124209_g83047487635803_cont_sun_m_1218_11_alg».proof.Proof.KFrameBits
import proofs.«124209_g83047487635803_cont_sun_m_1218_11_alg».proof.Proof.KRun
import proofs.«124209_g83047487635803_cont_sun_m_1218_11_alg».proof.Proof.RefRun
import proofs.«124209_g83047487635803_cont_sun_m_1218_11_alg».proof.Proof.RefValue
import proofs.«124209_g83047487635803_cont_sun_m_1218_11_alg».proof.Proof.LNLaw
import proofs.«124209_g83047487635803_cont_sun_m_1218_11_alg».proof.Proof.Finite
import Idealize.ShloMosaic.Adequacy
import Idealize.ShloMosaic.Init

noncomputable section

namespace Cert.Proof

open Idealize.ShloMosaic Idealize.SL.Sem

/-- The word-level kernel runs and leaves its arguments unchanged. -/
theorem frame_p : Cert.frame_Kernel := fun m ρ _ => Cert.Kernel.Hand.frame (F := Bits) m ρ

/-- So does the idealized kernel. -/
theorem frame_pi : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Hand.run (F := Ideal) m ρ)

/-- The idealization rewrote nothing. -/
theorem preserves : Cert.preserves_Kernel_KernelIdeal := trivial

/-- From memories that agree on the arguments both programs end with the same result: the kernel's array is the
    row-wise normalisation in its spelling, the reference's in the other, and on real rows the two are one function. -/
theorem algebraic : Cert.algebraic_KernelIdeal_ReferenceIdeal := by
  intro m ρ m' ρ' hpre hagree
  refine ⟨fun c => Cert.KernelIdeal.Hand.Gout m c, Cert.KernelIdeal.Hand.run m ρ, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2.1, (hagree c).2.2.1, (hagree c).2.2.2, Cert.ReferenceIdeal.Hand.refTerm_eq_G]
  obtain ⟨hx, hp⟩ := Cert.Pre_finite_inputs.Hand.real_of_pre _ _ _ _ (hpre c)
  exact (Cert.LN.GK_eq_G _ _ _ _ hx hp).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
